-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x3200000 : Shape := ⟨2, ![2, 3200000]⟩
abbrev S2x16 : Shape := ⟨2, ![2, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x16 : S_.BroadcastsInDim S2x16 (![] : Fin 0 → Fin S2x16.rank)
  reducesTo_S2x16_S_d0_1 : S2x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S16 .f32) (main_arg13 : FVec F S16x1 .f32) (main_arg14 : FVec F S1 .f32) (main_v48 : IVec S_ 1) (main_v49 : FVec F S16x16 .f32) (main_v50 : FVec F S16x16 .f32) : IVec S_ 1 :=
  let main_v51 : IVec S16x16 1 := cmpf .olt main_v49 main_v50
  let main_c_19 : IVec S_ 1 := constantI S_ 1 1#1
  let main_v52 : IVec S_ 1 := (fun x v => Host.reduce IntOp.andi x v reducesTo_S16x16_S_d0_1 h_S_) main_v51 main_c_19
  let main_v53 : IVec S_ 1 := andi main_v48 main_v52
  let main_v54 : FVec F S16 .f32 := Host.absf main_arg12
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S16x1 .f32 := Host.absf main_arg13
  let main_cst_22 : FVec F S_ .f32 := constant S_ .f32 0x7F800000#32
  let main_v60 : FVec F S16x1 .f32 := broadcastInDim S16x1 ![] bcast_S_S16x1 main_cst_22
  let main_v61 : IVec S16x1 1 := cmpf .olt main_v59 main_v60
  let main_c_23 : IVec S_ 1 := constantI S_ 1 1#1
  let main_v62 : IVec S_ 1 := (fun x v => Host.reduce IntOp.andi x v reducesTo_S16x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg8 : FVec F S16x16 .f32) (main_arg9 : FVec F S16 .f32) (main_arg10 : FVec F S16x16 .f32) (main_arg11 : FVec F S16x16 .f32) (main_arg12 : FVec F S16 .f32) (main_arg13 : FVec F S16x1 .f32) (main_arg14 : FVec F S1 .f32) (main_v33 : IVec S_ 1) : IVec S_ 1 :=
  let main_v34 : FVec F S16x16 .f32 := Host.absf main_arg8
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x16 .f32 := Host.absf main_arg10
  let main_cst_16 : FVec F S_ .f32 := constant S_ .f32 0x7F800000#32
  let main_v45 : FVec F S16x16 .f32 := broadcastInDim S16x16 ![] bcast_S_S16x16 main_cst_16
  let main_v46 : IVec S16x16 1 := cmpf .olt main_v44 main_v45
  let main_c_17 : IVec S_ 1 := constantI S_ 1 1#1
  let main_v47 : IVec S_ 1 := (fun x v => Host.reduce IntOp.andi x v reducesTo_S16x16_S_d0_1 h_S_) main_v46 main_c_17
  let main_v48 : IVec S_ 1 := andi main_v43 main_v47
  let main_v49 : FVec F S16x16 .f32 := Host.absf main_arg11
  let main_cst_18 : FVec F S_ .f32 := constant S_ .f32 0x7F800000#32
  let main_v50 : FVec F S16x16 .f32 := broadcastInDim S16x16 ![] bcast_S_S16x16 main_cst_18
  fn_part3 (F := F) main_arg12 main_arg13 main_arg14 main_v48 main_v49 main_v50

def fn_part1 {F : FTy → Type} [FloatOps F] (main_arg5 : FVec F S16x16 .f32) (main_arg6 : FVec F S16 .f32) (main_arg7 : FVec F S16x16 .f32) (main_arg8 : FVec F S16x16 .f32) (main_arg9 : FVec F S16 .f32) (main_arg10 : FVec F S16x16 .f32) (main_arg11 : FVec F S16x16 .f32) (main_arg12 : FVec F S16 .f32) (main_arg13 : FVec F S16x1 .f32) (main_arg14 : FVec F S1 .f32) (main_v13 : IVec S_ 1) (main_v16 : IVec S2x16 1) : IVec S_ 1 :=
  let main_c_5 : IVec S_ 1 := constantI S_ 1 1#1
  let main_v17 : IVec S_ 1 := (fun x v => Host.reduce IntOp.andi x v reducesTo_S2x16_S_d0_1 h_S_) main_v16 main_c_5
  let main_v18 : IVec S_ 1 := andi main_v13 main_v17
  let main_v19 : FVec F S16x16 .f32 := Host.absf main_arg5
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg7
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x2 .f32) (main_arg1 : IVec S2x3200000 32) (main_arg2 : FVec F S2x16 .f32) (main_arg3 : FVec F S16 .f32) (main_arg4 : FVec F S2x16 .f32) (main_arg5 : FVec F S16x16 .f32) (main_arg6 : FVec F S16 .f32) (main_arg7 : FVec F S16x16 .f32) (main_arg8 : FVec F S16x16 .f32) (main_arg9 : FVec F S16 .f32) (main_arg10 : FVec F S16x16 .f32) (main_arg11 : FVec F S16x16 .f32) (main_arg12 : FVec F S16 .f32) (main_arg13 : FVec F S16x1 .f32) (main_arg14 : FVec F S1 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S2x16 .f32 := Host.absf main_arg2
  let main_cst_0 : FVec F S_ .f32 := constant S_ .f32 0x7F800000#32
  let main_v5 : FVec F S2x16 .f32 := broadcastInDim S2x16 ![] bcast_S_S2x16 main_cst_0
  let main_v6 : IVec S2x16 1 := cmpf .olt main_v4 main_v5
  let main_c_1 : IVec S_ 1 := constantI S_ 1 1#1
  let main_v7 : IVec S_ 1 := (fun x v => Host.reduce IntOp.andi x v reducesTo_S2x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S2x16 .f32 := Host.absf main_arg4
  let main_cst_4 : FVec F S_ .f32 := constant S_ .f32 0x7F800000#32
  let main_v15 : FVec F S2x16 .f32 := broadcastInDim S2x16 ![] bcast_S_S2x16 main_cst_4
  let main_v16 : IVec S2x16 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x2 : Shape := ⟨2, ![100000, 2]⟩
abbrev S2x3200000 : Shape := ⟨2, ![2, 3200000]⟩
abbrev S2x16 : Shape := ⟨2, ![2, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x2 : Shape := ⟨2, ![3200000, 2]⟩
abbrev S1x16 : Shape := ⟨2, ![1, 16]⟩
abbrev S100000x16 : Shape := ⟨2, ![100000, 16]⟩
abbrev S20000x2 : Shape := ⟨2, ![20000, 2]⟩
abbrev S20000x16 : Shape := ⟨2, ![20000, 16]⟩
abbrev S3200000x16 : Shape := ⟨2, ![3200000, 16]⟩
abbrev S1x1 : Shape := ⟨2, ![1, 1]⟩
abbrev S100000x1 : Shape := ⟨2, ![100000, 1]⟩
abbrev S20000x1 : Shape := ⟨2, ![20000, 1]⟩

abbrev nBuf : Space → Nat
  | .hbm => 67
  | .vmem => 35
  | .smem => 0
  | _ => 0

abbrev bufTy : (tb : Table) → Fin (tcTables nBuf tb) → BufTy
  | .hbm, ⟨0, _⟩ => ⟨S100000x2, .f32⟩
  | .hbm, ⟨1, _⟩ => ⟨S2x3200000, .i32⟩
  | .hbm, ⟨2, _⟩ => ⟨S2x16, .f32⟩
  | .hbm, ⟨3, _⟩ => ⟨S16, .f32⟩
  | .hbm, ⟨4, _⟩ => ⟨S2x16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16x16, .f32⟩
  | .hbm, ⟨9, _⟩ => ⟨S16, .f32⟩
  | .hbm, ⟨10, _⟩ => ⟨S16x16, .f32⟩
  | .hbm, ⟨11, _⟩ => ⟨S16x16, .f32⟩
  | .hbm, ⟨12, _⟩ => ⟨S16, .f32⟩
  | .hbm, ⟨13, _⟩ => ⟨S16x1, .f32⟩
  | .hbm, ⟨14, _⟩ => ⟨S1, .f32⟩
  | .hbm, ⟨15, _⟩ => ⟨S1x3200000, .i32⟩
  | .hbm, ⟨16, _⟩ => ⟨S3200000, .i32⟩
  | .hbm, ⟨17, _⟩ => ⟨S1x3200000, .i32⟩
  | .hbm, ⟨18, _⟩ => ⟨S3200000, .i32⟩
  | .hbm, ⟨19, _⟩ => ⟨S_, .i32⟩
  | .hbm, ⟨20, _⟩ => ⟨S3200000, .i32⟩
  | .hbm, ⟨21, _⟩ => ⟨S3200000, .i1⟩
  | .hbm, ⟨22, _⟩ => ⟨S_, .i32⟩
  | .hbm, ⟨23, _⟩ => ⟨S3200000, .i32⟩
  | .hbm, ⟨24, _⟩ => ⟨S3200000, .i32⟩
  | .hbm, ⟨25, _⟩ => ⟨S3200000, .i32⟩
  | .hbm, ⟨26, _⟩ => ⟨S3200000x1, .i32⟩
  | .hbm, ⟨27, _⟩ => ⟨S3200000x2, .f32⟩
  | .hbm, ⟨28, _⟩ => ⟨S_, .f32⟩
  | .hbm, ⟨29, _⟩ => ⟨S100000x2, .f32⟩
  | .hbm, ⟨30, _⟩ => ⟨S3200000x1, .i32⟩
  | .hbm, ⟨31, _⟩ => ⟨S100000x2, .f32⟩
  | .hbm, ⟨32, _⟩ => ⟨S1x16, .f32⟩
  | .hbm, ⟨33, _⟩ => ⟨S100000x16, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S3200000x16, .f32⟩
  | .hbm, ⟨43, _⟩ => ⟨S_, .f32⟩
  | .hbm, ⟨44, _⟩ => ⟨S100000x16, .f32⟩
  | .hbm, ⟨45, _⟩ => ⟨S3200000x1, .i32⟩
  | .hbm, ⟨46, _⟩ => ⟨S100000x16, .f32⟩
  | .hbm, ⟨47, _⟩ => ⟨S1x16, .f32⟩
  | .hbm, ⟨48, _⟩ => ⟨S100000x16, .f32⟩
  | .hbm, ⟨49, _⟩ => ⟨S_, .i32⟩
  | .hbm, ⟨50, _⟩ => ⟨S3200000, .i32⟩
  | .hbm, ⟨51, _⟩ => ⟨S3200000, .i1⟩
  | .hbm, ⟨52, _⟩ => ⟨S_, .i32⟩
  | .hbm, ⟨53, _⟩ => ⟨S3200000, .i32⟩
  | .hbm, ⟨54, _⟩ => ⟨S3200000, .i32⟩
  | .hbm, ⟨55, _⟩ => ⟨S3200000, .i32⟩
  | .hbm, ⟨56, _⟩ => ⟨S3200000x1, .i32⟩
  | .hbm, ⟨57, _⟩ => ⟨S3200000x16, .f32⟩
  | .hbm, ⟨58, _⟩ => ⟨S_, .f32⟩
  | .hbm, ⟨59, _⟩ => ⟨S100000x16, .f32⟩
  | .hbm, ⟨60, _⟩ => ⟨S3200000x1, .i32⟩
  | .hbm, ⟨61, _⟩ => ⟨S100000x16, .f32⟩
  | .hbm, ⟨62, _⟩ => ⟨S1x16, .f32⟩
  | .hbm, ⟨63, _⟩ => ⟨S100000x16, .f32⟩
  | .hbm, ⟨64, _⟩ => ⟨S1x16, .f32⟩
  | .hbm, ⟨65, _⟩ => ⟨S1x1, .f32⟩
  | .hbm, ⟨66, _⟩ => ⟨S100000x1, .f32⟩
  | .local _ .vmem, ⟨0, _⟩ => ⟨S20000x2, .f32⟩
  | .local _ .vmem, ⟨1, _⟩ => ⟨S20000x2, .f32⟩
  | .local _ .vmem, ⟨2, _⟩ => ⟨S20000x2, .f32⟩
  | .local _ .vmem, ⟨3, _⟩ => ⟨S20000x2, .f32⟩
  | .local _ .vmem, ⟨4, _⟩ => ⟨S2x16, .f32⟩
  | .local _ .vmem, ⟨5, _⟩ => ⟨S1x16, .f32⟩
  | .local _ .vmem, ⟨6, _⟩ => ⟨S2x16, .f32⟩
  | .local _ .vmem, ⟨7, _⟩ => ⟨S20000x16, .f32⟩
  | .local _ .vmem, ⟨8, _⟩ => ⟨S20000x16, .f32⟩
  | .local _ .vmem, ⟨9, _⟩ => ⟨S20000x16, .f32⟩
  | .local _ .vmem, ⟨10, _⟩ => ⟨S20000x16, .f32⟩
  | .local _ .vmem, ⟨11, _⟩ => ⟨S20000x16, .f32⟩
  | .local _ .vmem, ⟨12, _⟩ => ⟨S20000x16, .f32⟩
  | .local _ .vmem, ⟨13, _⟩ => ⟨S16x16, .f32⟩
  | .local _ .vmem, ⟨14, _⟩ => ⟨S1x16, .f32⟩
  | .local _ .vmem, ⟨15, _⟩ => ⟨S16x16, .f32⟩
  | .local _ .vmem, ⟨16, _⟩ => ⟨S20000x16, .f32⟩
  | .local _ .vmem, ⟨17, _⟩ => ⟨S20000x16, .f32⟩
  | .local _ .vmem, ⟨18, _⟩ => ⟨S20000x16, .f32⟩
  | .local _ .vmem, ⟨19, _⟩ => ⟨S20000x16, .f32⟩
  | .local _ .vmem, ⟨20, _⟩ => ⟨S20000x16, .f32⟩
  | .local _ .vmem, ⟨21, _⟩ => ⟨S20000x16, .f32⟩
  | .local _ .vmem, ⟨22, _⟩ => ⟨S16x16, .f32⟩
  | .local _ .vmem, ⟨23, _⟩ => ⟨S1x16, .f32⟩
  | .local _ .vmem, ⟨24, _⟩ => ⟨S16x16, .f32⟩
  | .local _ .vmem, ⟨25, _⟩ => ⟨S20000x16, .f32⟩
  | .local _ .vmem, ⟨26, _⟩ => ⟨S20000x16, .f32⟩
  | .local _ .vmem, ⟨27, _⟩ => ⟨S20000x16, .f32⟩
  | .local _ .vmem, ⟨28, _⟩ => ⟨S20000x16, .f32⟩
  | .local _ .vmem, ⟨29, _⟩ => ⟨S16x16, .f32⟩
  | .local _ .vmem, ⟨30, _⟩ => ⟨S1x16, .f32⟩
  | .local _ .vmem, ⟨31, _⟩ => ⟨S16x1, .f32⟩
  | .local _ .vmem, ⟨32, _⟩ => ⟨S1x1, .f32⟩
  | .local _ .vmem, ⟨33, _⟩ => ⟨S20000x1, .f32⟩
  | .local _ .vmem, ⟨34, _⟩ => ⟨S20000x1, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S20000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S20000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S20000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S20000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S16x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S20000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x2 : S_.BroadcastsInDim S100000x2 (![] : Fin 0 → Fin S100000x2.rank)
  shapeCasts_S16_S1x16 : S16.ShapeCasts S1x16
  inb_S20000x2_S20000x2_0_0 : ∀ a, (![0, 0] : Fin 2 → Nat) a + S20000x2.size a ≤ S20000x2.size a
  h_S20000x2 : 0 < S20000x2.numel
  shapeCasts_S20000x2_S20000x2 : S20000x2.ShapeCasts S20000x2
  bitsLt_bf16_f32 : FTy.bits .bf16 < FTy.bits .f32
  inb_S2x16_S2x16_0_0 : ∀ a, (![0, 0] : Fin 2 → Nat) a + S2x16.size a ≤ S2x16.size a
  h_S2x16 : 0 < S2x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S20000x16 : S1x16.Broadcasts S20000x16
  inb_S20000x16_S20000x16_0_0 : ∀ a, (![0, 0] : Fin 2 → Nat) a + S20000x16.size a ≤ S20000x16.size a
  h_S20000x16 : 0 < S20000x16.numel
  bcast_S_S100000x16 : S_.BroadcastsInDim S100000x16 (![] : Fin 0 → Fin S100000x16.rank)
  shapeCasts_S20000x16_S20000x16 : S20000x16.ShapeCasts S20000x16
  inb_S16x16_S16x16_0_0 : ∀ a, (![0, 0] : Fin 2 → Nat) a + S16x16.size a ≤ S16x16.size a
  h_S16x16 : 0 < S16x16.numel
  shapeCasts_S1_S1x1 : S1.ShapeCasts S1x1
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S20000x1 : S1x1.Broadcasts S20000x1
  inb_S20000x1_S20000x1_0_0 : ∀ a, (![0, 0] : Fin 2 → Nat) a + S20000x1.size a ≤ S20000x1.size a
  h_S20000x1 : 0 < S20000x1.numel
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1
  dot_S20000x2_S2x16_S20000x16_1_0_0_1_n_n_wf : DotDims.WF S20000x2 S2x16 S20000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S20000x16_S16x16_S20000x16_1_0_0_1_n_n_wf : DotDims.WF S20000x16 S16x16 S20000x16 [1] [0] [0] [1] [] []
  dot_S20000x16_S16x1_S20000x1_1_0_0_1_n_n_wf : DotDims.WF S20000x16 S16x1 S20000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x2.size a ≤ S100000x2.size a
  hwx0_0 : ∀ i : grid0.Coords, EltTy.bits .f32 = 32 ∨ (Rect.block (s := S100000x2) S20000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x2.size a ≤ S100000x2.size a
  hwx0_1 : ∀ i : grid0.Coords, EltTy.bits .f32 = 32 ∨ (Rect.block (s := S100000x2) S20000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x16.size a ≤ S2x16.size a
  hwx0_2 : ∀ i : grid0.Coords, EltTy.bits .f32 = 32 ∨ (Rect.block (s := S2x16) S2x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x16.size a ≤ S2x16.size a
  hwx0_4 : ∀ i : grid0.Coords, EltTy.bits .f32 = 32 ∨ (Rect.block (s := S2x16) S2x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S20000x16.size a ≤ S100000x16.size a
  hwx0_5 : ∀ i : grid0.Coords, EltTy.bits .f32 = 32 ∨ (Rect.block (s := S100000x16) S20000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x16.size a ≤ S100000x16.size a
  hwx1_0 : ∀ i : grid1.Coords, EltTy.bits .f32 = 32 ∨ (Rect.block (s := S100000x16) S20000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x16.size a ≤ S100000x16.size a
  hwx1_1 : ∀ i : grid1.Coords, EltTy.bits .f32 = 32 ∨ (Rect.block (s := S100000x16) S20000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x16.size a ≤ S16x16.size a
  hwx1_4 : ∀ i : grid1.Coords, EltTy.bits .f32 = 32 ∨ (Rect.block (s := S16x16) S16x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S20000x16.size a ≤ S100000x16.size a
  hwx1_5 : ∀ i : grid1.Coords, EltTy.bits .f32 = 32 ∨ (Rect.block (s := S100000x16) S20000x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x16.size a ≤ S100000x16.size a
  hwx2_0 : ∀ i : grid2.Coords, EltTy.bits .f32 = 32 ∨ (Rect.block (s := S100000x16) S20000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S20000x16.size a ≤ S100000x16.size a
  hwx2_1 : ∀ i : grid2.Coords, EltTy.bits .f32 = 32 ∨ (Rect.block (s := S100000x16) S20000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x16.size a ≤ S16x16.size a
  hwx2_2 : ∀ i : grid2.Coords, EltTy.bits .f32 = 32 ∨ (Rect.block (s := S16x16) S16x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x16.size a ≤ S16x16.size a
  hwx2_4 : ∀ i : grid2.Coords, EltTy.bits .f32 = 32 ∨ (Rect.block (s := S16x16) S16x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S20000x16.size a ≤ S100000x16.size a
  hwx2_5 : ∀ i : grid2.Coords, EltTy.bits .f32 = 32 ∨ (Rect.block (s := S100000x16) S20000x16.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x16.size a ≤ S100000x16.size a
  hwx3_0 : ∀ i : grid3.Coords, EltTy.bits .f32 = 32 ∨ (Rect.block (s := S100000x16) S20000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x16.size a ≤ S16x16.size a
  hwx3_1 : ∀ i : grid3.Coords, EltTy.bits .f32 = 32 ∨ (Rect.block (s := S16x16) S16x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x1.size a ≤ S16x1.size a
  hwx3_3 : ∀ i : grid3.Coords, EltTy.bits .f32 = 32 ∨ (Rect.block (s := S16x1) S16x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S20000x1.size a ≤ S100000x1.size a
  hwx3_5 : ∀ i : grid3.Coords, EltTy.bits .f32 = 32 ∨ (Rect.block (s := S100000x1) S20000x1.size (cc3_transform_5 i) (hinb3_5 i)).WholeWords (EltTy.packing .f32)

variable [Facts₀]

def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf
def dot_S20000x2_S2x16_S20000x16_1_0_0_1_n_n : DotDims S20000x2 S2x16 S20000x16 where
  lhsContracting := [1]
  rhsContracting := [0]
  lhsNonContracting := [0]
  rhsNonContracting := [1]
  lhsBatch := []
  rhsBatch := []
  wf := dot_S20000x2_S2x16_S20000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S20000x16_S16x16_S20000x16_1_0_0_1_n_n : DotDims S20000x16 S16x16 S20000x16 where
  lhsContracting := [1]
  rhsContracting := [0]
  lhsNonContracting := [0]
  rhsNonContracting := [1]
  lhsBatch := []
  rhsBatch := []
  wf := dot_S20000x16_S16x16_S20000x16_1_0_0_1_n_n_wf
def dot_S20000x16_S16x1_S20000x1_1_0_0_1_n_n : DotDims S20000x16 S16x1 S20000x1 where
  lhsContracting := [1]
  rhsContracting := [0]
  lhsNonContracting := [0]
  rhsNonContracting := [1]
  lhsBatch := []
  rhsBatch := []
  wf := dot_S20000x16_S16x1_S20000x1_1_0_0_1_n_n_wf

abbrev win0_0 : Pipeline.Window sig grid0 :=
  Pipeline.Window.ofSpec (Memref.whole main_v13) S20000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S20000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S20000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S20000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S20000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S16x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S20000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S20000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S20000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S16x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S16x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S20000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v39) S20000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S16x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S16x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v41) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v42) S20000x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x2 : Shape := ⟨2, ![100000, 2]⟩
abbrev S2x3200000 : Shape := ⟨2, ![2, 3200000]⟩
abbrev S2x16 : Shape := ⟨2, ![2, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x2 : Shape := ⟨2, ![3200000, 2]⟩
abbrev S100000x16 : Shape := ⟨2, ![100000, 16]⟩
abbrev S1x16 : Shape := ⟨2, ![1, 16]⟩
abbrev S3200000x16 : Shape := ⟨2, ![3200000, 16]⟩
abbrev S100000x1 : Shape := ⟨2, ![100000, 1]⟩
abbrev S1x1 : Shape := ⟨2, ![1, 1]⟩

abbrev nBuf : Space → Nat
  | .hbm => 96
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S2x3200000, .i32⟩
  | .hbm, ⟨2, _⟩ => ⟨S2x16, .f32⟩
  | .hbm, ⟨3, _⟩ => ⟨S16, .f32⟩
  | .hbm, ⟨4, _⟩ => ⟨S2x16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16x16, .f32⟩
  | .hbm, ⟨9, _⟩ => ⟨S16, .f32⟩
  | .hbm, ⟨10, _⟩ => ⟨S16x16, .f32⟩
  | .hbm, ⟨11, _⟩ => ⟨S16x16, .f32⟩
  | .hbm, ⟨12, _⟩ => ⟨S16, .f32⟩
  | .hbm, ⟨13, _⟩ => ⟨S16x1, .f32⟩
  | .hbm, ⟨14, _⟩ => ⟨S1, .f32⟩
  | .hbm, ⟨15, _⟩ => ⟨S1x3200000, .i32⟩
  | .hbm, ⟨16, _⟩ => ⟨S3200000, .i32⟩
  | .hbm, ⟨17, _⟩ => ⟨S1x3200000, .i32⟩
  | .hbm, ⟨18, _⟩ => ⟨S3200000, .i32⟩
  | .hbm, ⟨19, _⟩ => ⟨S_, .i32⟩
  | .hbm, ⟨20, _⟩ => ⟨S3200000, .i32⟩
  | .hbm, ⟨21, _⟩ => ⟨S3200000, .i1⟩
  | .hbm, ⟨22, _⟩ => ⟨S_, .i32⟩
  | .hbm, ⟨23, _⟩ => ⟨S3200000, .i32⟩
  | .hbm, ⟨24, _⟩ => ⟨S3200000, .i32⟩
  | .hbm, ⟨25, _⟩ => ⟨S3200000, .i32⟩
  | .hbm, ⟨26, _⟩ => ⟨S3200000x1, .i32⟩
  | .hbm, ⟨27, _⟩ => ⟨S3200000x2, .f32⟩
  | .hbm, ⟨28, _⟩ => ⟨S_, .f32⟩
  | .hbm, ⟨29, _⟩ => ⟨S100000x2, .f32⟩
  | .hbm, ⟨30, _⟩ => ⟨S3200000x1, .i32⟩
  | .hbm, ⟨31, _⟩ => ⟨S100000x2, .f32⟩
  | .hbm, ⟨32, _⟩ => ⟨S100000x16, .f32⟩
  | .hbm, ⟨33, _⟩ => ⟨S1x16, .f32⟩
  | .hbm, ⟨34, _⟩ => ⟨S100000x16, .f32⟩
  | .hbm, ⟨35, _⟩ => ⟨S100000x16, .f32⟩
  | .hbm, ⟨36, _⟩ => ⟨S100000x16, .f32⟩
  | .hbm, ⟨37, _⟩ => ⟨S100000x16, .f32⟩
  | .hbm, ⟨38, _⟩ => ⟨S_, .f32⟩
  | .hbm, ⟨39, _⟩ => ⟨S100000x16, .f32⟩
  | .hbm, ⟨40, _⟩ => ⟨S100000x16, .f32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S3200000x16, .f32⟩
  | .hbm, ⟨50, _⟩ => ⟨S_, .f32⟩
  | .hbm, ⟨51, _⟩ => ⟨S100000x16, .f32⟩
  | .hbm, ⟨52, _⟩ => ⟨S3200000x1, .i32⟩
  | .hbm, ⟨53, _⟩ => ⟨S100000x16, .f32⟩
  | .hbm, ⟨54, _⟩ => ⟨S100000x16, .f32⟩
  | .hbm, ⟨55, _⟩ => ⟨S1x16, .f32⟩
  | .hbm, ⟨56, _⟩ => ⟨S100000x16, .f32⟩
  | .hbm, ⟨57, _⟩ => ⟨S100000x16, .f32⟩
  | .hbm, ⟨58, _⟩ => ⟨S100000x16, .f32⟩
  | .hbm, ⟨59, _⟩ => ⟨S100000x16, .f32⟩
  | .hbm, ⟨60, _⟩ => ⟨S_, .f32⟩
  | .hbm, ⟨61, _⟩ => ⟨S100000x16, .f32⟩
  | .hbm, ⟨62, _⟩ => ⟨S100000x16, .f32⟩
  | .hbm, ⟨63, _⟩ => ⟨S_, .i32⟩
  | .hbm, ⟨64, _⟩ => ⟨S3200000, .i32⟩
  | .hbm, ⟨65, _⟩ => ⟨S3200000, .i1⟩
  | .hbm, ⟨66, _⟩ => ⟨S_, .i32⟩
  | .hbm, ⟨67, _⟩ => ⟨S3200000, .i32⟩
  | .hbm, ⟨68, _⟩ => ⟨S3200000, .i32⟩
  | .hbm, ⟨69, _⟩ => ⟨S3200000, .i32⟩
  | .hbm, ⟨70, _⟩ => ⟨S3200000x1, .i32⟩
  | .hbm, ⟨71, _⟩ => ⟨S3200000x16, .f32⟩
  | .hbm, ⟨72, _⟩ => ⟨S_, .f32⟩
  | .hbm, ⟨73, _⟩ => ⟨S100000x16, .f32⟩
  | .hbm, ⟨74, _⟩ => ⟨S3200000x1, .i32⟩
  | .hbm, ⟨75, _⟩ => ⟨S100000x16, .f32⟩
  | .hbm, ⟨76, _⟩ => ⟨S100000x16, .f32⟩
  | .hbm, ⟨77, _⟩ => ⟨S1x16, .f32⟩
  | .hbm, ⟨78, _⟩ => ⟨S100000x16, .f32⟩
  | .hbm, ⟨79, _⟩ => ⟨S100000x16, .f32⟩
  | .hbm, ⟨80, _⟩ => ⟨S100000x16, .f32⟩
  | .hbm, ⟨81, _⟩ => ⟨S100000x16, .f32⟩
  | .hbm, ⟨82, _⟩ => ⟨S_, .f32⟩
  | .hbm, ⟨83, _⟩ => ⟨S100000x16, .f32⟩
  | .hbm, ⟨84, _⟩ => ⟨S100000x16, .f32⟩
  | .hbm, ⟨85, _⟩ => ⟨S100000x16, .f32⟩
  | .hbm, ⟨86, _⟩ => ⟨S1x16, .f32⟩
  | .hbm, ⟨87, _⟩ => ⟨S100000x16, .f32⟩
  | .hbm, ⟨88, _⟩ => ⟨S100000x16, .f32⟩
  | .hbm, ⟨89, _⟩ => ⟨S_, .f32⟩
  | .hbm, ⟨90, _⟩ => ⟨S100000x16, .f32⟩
  | .hbm, ⟨91, _⟩ => ⟨S100000x16, .f32⟩
  | .hbm, ⟨92, _⟩ => ⟨S100000x1, .f32⟩
  | .hbm, ⟨93, _⟩ => ⟨S1x1, .f32⟩
  | .hbm, ⟨94, _⟩ => ⟨S100000x1, .f32⟩
  | .hbm, ⟨95, _⟩ => ⟨S100000x1, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call0_cst : Ref sig .tc := ⟨.hbm, 38, rfl⟩
abbrev main_call0_v0 : Ref sig .tc := ⟨.hbm, 39, rfl⟩
abbrev main_v20 : Ref sig .tc := ⟨.hbm, 40, rfl⟩
abbrev main_c_1 : Ref sig .tc := ⟨.hbm, 41, rfl⟩
abbrev main_v21 : Ref sig .tc := ⟨.hbm, 42, rfl⟩
abbrev main_v22 : Ref sig .tc := ⟨.hbm, 43, rfl⟩
abbrev main_c_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call1_cst : Ref sig .tc := ⟨.hbm, 60, rfl⟩
abbrev main_call1_v0 : Ref sig .tc := ⟨.hbm, 61, rfl⟩
abbrev main_v37 : Ref sig .tc := ⟨.hbm, 62, rfl⟩
abbrev main_c_4 : Ref sig .tc := ⟨.hbm, 63, rfl⟩
abbrev main_v38 : Ref sig .tc := ⟨.hbm, 64, rfl⟩
abbrev main_v39 : Ref sig .tc := ⟨.hbm, 65, rfl⟩
abbrev main_c_5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call2_cst : Ref sig .tc := ⟨.hbm, 82, rfl⟩
abbrev main_call2_v0 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call3_cst : Ref sig .tc := ⟨.hbm, 89, rfl⟩
abbrev main_call3_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x2 : S_.BroadcastsInDim S100000x2 (![] : Fin 0 → Fin S100000x2.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1
  dot_S100000x2_S2x16_S100000x16_1_0_0_1_n_n_wf : DotDims.WF S100000x2 S2x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x16_S100000x16_1_0_0_1_n_n_wf : DotDims.WF S100000x16 S16x16 S100000x16 [1] [0] [0] [1] [] []
  dot_S100000x16_S16x1_S100000x1_1_0_0_1_n_n_wf : DotDims.WF S100000x16 S16x1 S100000x1 [1] [0] [0] [1] [] []

variable [Facts₀]

def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf
def dot_S100000x2_S2x16_S100000x16_1_0_0_1_n_n : DotDims S100000x2 S2x16 S100000x16 where
  lhsContracting := [1]
  rhsContracting := [0]
  lhsNonContracting := [0]
  rhsNonContracting := [1]
  lhsBatch := []
  rhsBatch := []
  wf := dot_S100000x2_S2x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.LayerMath.lean ====
import Idealize.ShloMosaic.PureOps.Ideal.Laws
import Idealize.ShloMosaic.Lib.ValueIdx
import Idealize.ShloMosaic.Lib.ValueLayout
import Idealize.ShloMosaic.Lib.Pipeline.Value
import proofs.«155998_j81990925680800_1_alg».proof.Proof.LibPlainDot

noncomputable section

open scoped BigOperators

/-! # A graph-convolution layer and a two-layer head, entry by entry

On the extended reals a graph-convolution layer sends the aggregated features `A`, the node features `H`, two
weight matrices and a bias row to

  `out (r, q) = max (∑ₖ A (r, k) · W (k, q) + ∑ₖ H (r, k) · W' (k, q) + b q) 0`,

and the head sends the node features to `∑ₖ max (∑ₗ H (r, l) · W₁ (l, k) + b₁ k) 0 · W₂ (k, q) + b₂ q`.
Two programs compute these. One works on a block of rows at a time, with matrix-unit products into a zero
accumulator, adds the two products first and the bias (a `[1, N]` row laid under every row) last. The other works
on the whole array with host products, adds the bias (an `[N]` vector broadcast in two steps) to the first product
and the second product last. Entry by entry both are the formula above: the only law used is that addition of
extended reals is commutative and associative, which holds at the infinities too. -/

namespace Cert.GraphLayers

open Idealize.ShloMosaic Idealize.ShloMosaic.ValueIdx

variable {M R K N : ℕ}

/-- The zero word is the real number zero. -/
theorem zero_word : Ideal.ofBits .f32 0x00000000#32 = 0 := Ideal.ofBits_zero_f32

/-- One graph-convolution layer over a bias ROW `b : [1, N]`, entry by entry. -/
def convRow (A H : FVec Ideal ⟨2, ![M, K]⟩ .f32) (W W' : FVec Ideal ⟨2, ![K, N]⟩ .f32) (b : FVec Ideal ⟨2, ![1, N]⟩ .f32) :
    FVec Ideal ⟨2, ![M, N]⟩ .f32 := fun i =>
  max ((∑ k : Fin K, A (ix2 (i 0) k) * W (ix2 k (i 1)) + ∑ k : Fin K, H (ix2 (i 0) k) * W' (ix2 k (i 1)))
    + b (ix2 (0 : Fin 1) (i 1))) (Ideal.ofBits .f32 0x00000000#32)

/-- The two-layer head over bias rows, entry by entry. -/
def headRow {P : ℕ} (H : FVec Ideal ⟨2, ![M, K]⟩ .f32) (W₁ : FVec Ideal ⟨2, ![K, N]⟩ .f32) (b₁ : FVec Ideal ⟨2, ![1, N]⟩ .f32)
    (W₂ : FVec Ideal ⟨2, ![N, P]⟩ .f32) (b₂ : FVec Ideal ⟨2, ![1, P]⟩ .f32) : FVec Ideal ⟨2, ![M, P]⟩ .f32 := fun i =>
  (∑ k : Fin N, max (∑ l : Fin K, H (ix2 (i 0) l) * W₁ (ix2 l k) + b₁ (ix2 (0 : Fin 1) k)) (Ideal.ofBits .f32 0x00000000#32)
      * W₂ (ix2 k (i 1)))
    + b₂ (ix2 (0 : Fin 1) (i 1))

/-! ## A block of rows, as the kernel computes it -/

/-- The layer on a block of `R` rows: both operands of both products rounded to a narrower format first (the
    identity on the extended reals), the products into zero accumulators, their sum, the bias row under every row,
    the maximum with the zero splat. -/
theorem conv_block_apply (d : DotDims ⟨2, ![R, K]⟩ ⟨2, ![K, N]⟩ ⟨2, ![R, N]⟩) (hd : d = DotDims.plain R K N)
    (hb : (⟨2, ![1, N]⟩ : Shape).Broadcasts ⟨2, ![R, N]⟩) (ht : FTy.bf16.bits < FTy.f32.bits)
    (X Y : FVec Ideal ⟨2, ![R, K]⟩ .f32) (W W' : FVec Ideal ⟨2, ![K, N]⟩ .f32) (b : FVec Ideal ⟨2, ![1, N]⟩ .f32)
    (p : Fin R) (q : Fin N) :
    maximumf
        (addf
          (addf (matmul d none (truncf .bf16 X ht) (truncf .bf16 W ht) (constant ⟨2, ![R, N]⟩ .f32 0x00000000#32))
            (matmul d none (truncf .bf16 Y ht) (truncf .bf16 W' ht) (constant ⟨2, ![R, N]⟩ .f32 0x00000000#32)))
          (broadcastTo ⟨2, ![R, N]⟩ b hb))
        (broadcast ⟨2, ![R, N]⟩ (Scalar.ofBits (F := Ideal) .f32 0x00000000#32)) (ix2 p q)
      = max ((∑ k : Fin K, X (ix2 p k) * W (ix2 k q) + ∑ k : Fin K, Y (ix2 p k) * W' (ix2 k q)) + b (ix2 (0 : Fin 1) q))
          (Ideal.ofBits .f32 0x00000000#32) := by
  show max ((matmul d none (truncf .bf16 X ht) (truncf .bf16 W ht) (constant ⟨2, ![R, N]⟩ .f32 0x00000000#32) (ix2 p q)
      + matmul d none (truncf .bf16 Y ht) (truncf .bf16 W' ht) (constant ⟨2, ![R, N]⟩ .f32 0x00000000#32) (ix2 p q))
      + broadcastTo ⟨2, ![R, N]⟩ b hb (ix2 p q)) (Ideal.ofBits .f32 0x00000000#32) = _
  rw [broadcastTo_1b_ab_apply]
  rw [show matmul d none (truncf .bf16 X ht) (truncf .bf16 W ht) (constant ⟨2, ![R, N]⟩ .f32 0x00000000#32) (ix2 p q)
        = ∑ k : Fin K, X (ix2 p k) * W (ix2 k q) from
      Cert.PlainDot.matmul_zero_apply d hd none (truncf .bf16 X ht) (truncf .bf16 W ht) (ix2 p q)]
  rw [show matmul d none (truncf .bf16 Y ht) (truncf .bf16 W' ht) (constant ⟨2, ![R, N]⟩ .f32 0x00000000#32) (ix2 p q)
        = ∑ k : Fin K, Y (ix2 p k) * W' (ix2 k q) from
      Cert.PlainDot.matmul_zero_apply d hd none (truncf .bf16 Y ht) (truncf .bf16 W' ht) (ix2 p q)]

/-- The head on a block of `R` rows: a product, a bias row, the maximum with zero, a second product of the rounded
    result, a second bias row. -/
theorem head_block_apply {P : ℕ} (d₁ : DotDims ⟨2, ![R, K]⟩ ⟨2, ![K, N]⟩ ⟨2, ![R, N]⟩) (hd₁ : d₁ = DotDims.plain R K N)
    (d₂ : DotDims ⟨2, ![R, N]⟩ ⟨2, ![N, P]⟩ ⟨2, ![R, P]⟩) (hd₂ : d₂ = DotDims.plain R N P)
    (hb₁ : (⟨2, ![1, N]⟩ : Shape).Broadcasts ⟨2, ![R, N]⟩) (hb₂ : (⟨2, ![1, P]⟩ : Shape).Broadcasts ⟨2, ![R, P]⟩)
    (ht : FTy.bf16.bits < FTy.f32.bits)
    (X : FVec Ideal ⟨2, ![R, K]⟩ .f32) (W₁ : FVec Ideal ⟨2, ![K, N]⟩ .f32) (b₁ : FVec Ideal ⟨2, ![1, N]⟩ .f32)
    (W₂ : FVec Ideal ⟨2, ![N, P]⟩ .f32) (b₂ : FVec Ideal ⟨2, ![1, P]⟩ .f32) (p : Fin R) (q : Fin P) :
    addf
        (matmul d₂ none
          (truncf .bf16
            (maximumf
              (addf (matmul d₁ none (truncf .bf16 X ht) (truncf .bf16 W₁ ht) (constant ⟨2, ![R, N]⟩ .f32 0x00000000#32))
                (broadcastTo ⟨2, ![R, N]⟩ b₁ hb₁))
              (broadcast ⟨2, ![R, N]⟩ (Scalar.ofBits (F := Ideal) .f32 0x00000000#32))) ht)
          (truncf .bf16 W₂ ht) (constant ⟨2, ![R, P]⟩ .f32 0x00000000#32))
        (broadcastTo ⟨2, ![R, P]⟩ b₂ hb₂) (ix2 p q)
      = (∑ k : Fin N, max (∑ l : Fin K, X (ix2 p l) * W₁ (ix2 l k) + b₁ (ix2 (0 : Fin 1) k)) (Ideal.ofBits .f32 0x00000000#32)
            * W₂ (ix2 k q))
          + b₂ (ix2 (0 : Fin 1) q) := by
  show matmul d₂ none _ (truncf .bf16 W₂ ht) (constant ⟨2, ![R, P]⟩ .f32 0x00000000#32) (ix2 p q)
      + broadcastTo ⟨2, ![R, P]⟩ b₂ hb₂ (ix2 p q) = _
  rw [broadcastTo_1b_ab_apply]
  refine congrArg (· + b₂ (ix2 (0 : Fin 1) q)) ?_
  refine (Cert.PlainDot.matmul_zero_apply d₂ hd₂ none _ (truncf .bf16 W₂ ht) (ix2 p q)).trans ?_
  refine Finset.sum_congr rfl fun k _ => ?_
  refine congrArg (· * W₂ (ix2 k q)) ?_
  show max (matmul d₁ none (truncf .bf16 X ht) (truncf .bf16 W₁ ht) (constant ⟨2, ![R, N]⟩ .f32 0x00000000#32) (ix2 p k)
      + broadcastTo ⟨2, ![R, N]⟩ b₁ hb₁ (ix2 p k)) (Ideal.ofBits .f32 0x00000000#32) = _
  rw [broadcastTo_1b_ab_apply]
  rw [show matmul d₁ none (truncf .bf16 X ht) (truncf .bf16 W₁ ht) (constant ⟨2, ![R, N]⟩ .f32 0x00000000#32) (ix2 p k)
        = ∑ l : Fin K, X (ix2 p l) * W₁ (ix2 l k) from
      Cert.PlainDot.matmul_zero_apply d₁ hd₁ none (truncf .bf16 X ht) (truncf .bf16 W₁ ht) (ix2 p k)]

/-! ## The whole array, as the reference computes it -/

/-- An `[N]` vector broadcast to a `[1, N]` row and then under every row of an `[M, N]` array reads, at `(r, q)`,
    the vector at `q`. -/
theorem bias_apply (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    {α : Type} (b : (⟨1, ![N]⟩ : Shape).Idx → α) (p : Fin M) (q : Fin N) :
    broadcastInDim ⟨2, ![M, N]⟩ ![0, 1] h2 (broadcastInDim ⟨2, ![1, N]⟩ ![1] h1 b) (ix2 p q) = b (ix1 q) := by
  refine (broadcastInDim_apply ![0, 1] h2 _ (ix2 p q) (ix2 (0 : Fin 1) q) fun a => ?_).trans ?_
  · match a with
    | ⟨0, _⟩ => rfl
    | ⟨1, _⟩ =>
      show q.val = if N = 1 then 0 else q.val
      split
      · have := q.isLt; omega
      · rfl
  · refine broadcastInDim_apply ![1] h1 b (ix2 (0 : Fin 1) q) (ix1 q) fun a => ?_
    match a with
    | ⟨0, _⟩ =>
      show q.val = if N = 1 then 0 else q.val
      split
      · have := q.isLt; omega
      · rfl

/-- The reference's layer on the whole array is the layer over the bias vector cast to a row. -/
theorem conv_whole (d : DotDims ⟨2, ![M, K]⟩ ⟨2, ![K, N]⟩ ⟨2, ![M, N]⟩) (hd : d = DotDims.plain M K N)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2))
    (hc : (⟨1, ![N]⟩ : Shape).ShapeCasts ⟨2, ![1, N]⟩)
    (A H : FVec Ideal ⟨2, ![M, K]⟩ .f32) (W W' : FVec Ideal ⟨2, ![K, N]⟩ .f32) (b : FVec Ideal ⟨1, ![N]⟩ .f32) :
    maximumf
        (addf
          (addf (Host.dotGeneral d none A W)
            (broadcastInDim ⟨2, ![M, N]⟩ ![0, 1] h2 (broadcastInDim ⟨2, ![1, N]⟩ ![1] h1 b)))
          (Host.dotGeneral d none H W'))
        (broadcastInDim ⟨2, ![M, N]⟩ ![] h0 (constant (F := Ideal) ⟨0, ![]⟩ .f32 0x00000000#32))
      = convRow A H W W' (shapeCast ⟨2, ![1, N]⟩ b hc) := by
  funext i
  obtain ⟨p, q, rfl⟩ : ∃ (p : Fin M) (q : Fin N), i = ix2 p q := ⟨i 0, i 1, eq_ix2 i⟩
  show max ((Host.dotGeneral d none A W (ix2 p q)
      + broadcastInDim ⟨2, ![M, N]⟩ ![0, 1] h2 (broadcastInDim ⟨2, ![1, N]⟩ ![1] h1 b) (ix2 p q))
      + Host.dotGeneral d none H W' (ix2 p q)) (Ideal.ofBits .f32 0x00000000#32)
    = max ((∑ k : Fin K, A (ix2 p k) * W (ix2 k q) + ∑ k : Fin K, H (ix2 p k) * W' (ix2 k q))
      + shapeCast ⟨2, ![1, N]⟩ b hc (ix2 (0 : Fin 1) q)) (Ideal.ofBits .f32 0x00000000#32)
  rw [bias_apply, shapeCast_a_1a_apply]
  rw [show Host.dotGeneral d none A W (ix2 p q) = ∑ k : Fin K, A (ix2 p k) * W (ix2 k q) from
      Cert.PlainDot.dotGeneral_apply d hd none .single A W (ix2 p q)]
  rw [show Host.dotGeneral d none H W' (ix2 p q) = ∑ k : Fin K, H (ix2 p k) * W' (ix2 k q) from
      Cert.PlainDot.dotGeneral_apply d hd none .single H W' (ix2 p q)]
  rw [add_right_comm]

/-- The reference's head on the whole array is the head over the bias vectors cast to rows. -/
theorem head_whole {P : ℕ} (d₁ : DotDims ⟨2, ![M, K]⟩ ⟨2, ![K, N]⟩ ⟨2, ![M, N]⟩) (hd₁ : d₁ = DotDims.plain M K N)
    (d₂ : DotDims ⟨2, ![M, N]⟩ ⟨2, ![N, P]⟩ ⟨2, ![M, P]⟩) (hd₂ : d₂ = DotDims.plain M N P)
    (g1 : (⟨1, ![N]⟩ : Shape).BroadcastsInDim ⟨2, ![1, N]⟩ (![1] : Fin 1 → Fin 2))
    (g2 : (⟨2, ![1, N]⟩ : Shape).BroadcastsInDim ⟨2, ![M, N]⟩ (![0, 1] : Fin 2 → Fin 2))
    (g0 : (⟨0, ![]⟩ : Shape).BroadcastsInDim ⟨2, ![M, N]⟩ (![] : Fin 0 → Fin 2))
    (gc : (⟨1, ![N]⟩ : Shape).ShapeCasts ⟨2, ![1, N]⟩)
    (e1 : (⟨1, ![P]⟩ : Shape).BroadcastsInDim ⟨2, ![1, P]⟩ (![1] : Fin 1 → Fin 2))
    (e2 : (⟨2, ![1, P]⟩ : Shape).BroadcastsInDim ⟨2, ![M, P]⟩ (![0, 1] : Fin 2 → Fin 2))
    (ec : (⟨1, ![P]⟩ : Shape).ShapeCasts ⟨2, ![1, P]⟩)
    (H : FVec Ideal ⟨2, ![M, K]⟩ .f32) (W₁ : FVec Ideal ⟨2, ![K, N]⟩ .f32) (b₁ : FVec Ideal ⟨1, ![N]⟩ .f32)
    (W₂ : FVec Ideal ⟨2, ![N, P]⟩ .f32) (b₂ : FVec Ideal ⟨1, ![P]⟩ .f32) :
    addf
        (Host.dotGeneral d₂ none
          (maximumf
            (addf (Host.dotGeneral d₁ none H W₁)
              (broadcastInDim ⟨2, ![M, N]⟩ ![0, 1] g2 (broadcastInDim ⟨2, ![1, N]⟩ ![1] g1 b₁)))
            (broadcastInDim ⟨2, ![M, N]⟩ ![] g0 (constant (F := Ideal) ⟨0, ![]⟩ .f32 0x00000000#32)))
          W₂)
        (broadcastInDim ⟨2, ![M, P]⟩ ![0, 1] e2 (broadcastInDim ⟨2, ![1, P]⟩ ![1] e1 b₂))
      = headRow H W₁ (shapeCast ⟨2, ![1, N]⟩ b₁ gc) W₂ (shapeCast ⟨2, ![1, P]⟩ b₂ ec) := by
  funext i
  obtain ⟨p, q, rfl⟩ : ∃ (p : Fin M) (q : Fin P), i = ix2 p q := ⟨i 0, i 1, eq_ix2 i⟩
  show Host.dotGeneral d₂ none _ W₂ (ix2 p q)
      + broadcastInDim ⟨2, ![M, P]⟩ ![0, 1] e2 (broadcastInDim ⟨2, ![1, P]⟩ ![1] e1 b₂) (ix2 p q)
    = (∑ k : Fin N, max (∑ l : Fin K, H (ix2 p l) * W₁ (ix2 l k) + shapeCast ⟨2, ![1, N]⟩ b₁ gc (ix2 (0 : Fin 1) k))
          (Ideal.ofBits .f32 0x00000000#32) * W₂ (ix2 k q))
      + shapeCast ⟨2, ![1, P]⟩ b₂ ec (ix2 (0 : Fin 1) q)
  rw [bias_apply, shapeCast_a_1a_apply]
  refine congrArg (· + b₂ (ix1 q)) ?_
  refine (Cert.PlainDot.dotGeneral_apply d₂ hd₂ none .single _ W₂ (ix2 p q)).trans ?_
  refine Finset.sum_congr rfl fun k _ => ?_
  refine congrArg (· * W₂ (ix2 k q)) ?_
  show max (Host.dotGeneral d₁ none H W₁ (ix2 p k)
      + broadcastInDim ⟨2, ![M, N]⟩ ![0, 1] g2 (broadcastInDim ⟨2, ![1, N]⟩ ![1] g1 b₁) (ix2 p k))
      (Ideal.ofBits .f32 0x00000000#32) = _
  rw [bias_apply, shapeCast_a_1a_apply]
  rw [show Host.dotGeneral d₁ none H W₁ (ix2 p k) = ∑ l : Fin K, H (ix2 p l) * W₁ (ix2 l k) from
      Cert.PlainDot.dotGeneral_apply d₁ hd₁ none .single H W₁ (ix2 p k)]

end Cert.GraphLayers

end
-- ==== Proof.Layer0.lean ====
import proofs.«155998_j81990925680800_1_alg».proof.Proof.Gen.KernelIdeal.Frame
import proofs.«155998_j81990925680800_1_alg».proof.Proof.LayerMath
import Idealize.ShloMosaic.Lib.Pipeline.Value
import Idealize.ShloMosaic.Lib.ValueIdx

set_option maxRecDepth 16384

noncomputable section

open scoped BigOperators

/-! # What the first graph-convolution call leaves in its result array

The call runs on five blocks of 20000 rows. At block `t` the body reads rows `20000·t …` of the aggregated
features and of the node features, the two whole weight matrices and the whole bias row, and stores the layer's
value on those rows. So what block `t` writes back is rows `20000·t …` of ONE whole-array function, the layer
`GraphLayers.convRow` of the arrays as the call finds them; the five blocks tile the result array, which
therefore ends holding that function. -/

namespace Cert.KernelIdeal.Layer0

open Cert.KernelIdeal Cert.KernelIdeal.Gen Cert.GraphLayers
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the row-blocked windows sit at block `(t, 0)`, the others at `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 5 :=
  (by decide +kernel : ∀ t : Fin grid0.N, _)

/-- The body's stored value at entry `(p, q)` of the block, from the blocks it loads. -/
theorem pay_apply (x0 x1 : Vec Ideal S20000x2 .f32) (x2 x4 : Vec Ideal S2x16 .f32) (x3 : Vec Ideal S1x16 .f32)
    (p : Fin 20000) (q : Fin 16) :
    k0_pay1 x0 x1 x2 x4 x3 (ix2 p q)
      = max ((∑ k : Fin 2, x0 (ix2 p k) * x2 (ix2 k q) + ∑ k : Fin 2, x1 (ix2 p k) * x4 (ix2 k q)) + x3 (ix2 (0 : Fin 1) q))
          (Ideal.ofBits .f32 0x00000000#32) := by
  unfold k0_pay1
  simp only [shapeCast_self]
  exact conv_block_apply dot_S20000x2_S2x16_S20000x16_1_0_0_1_n_n rfl broadcasts_S1x16_S20000x16 bitsLt_bf16_f32 x0 x1 x2 x4 x3 p q

/-- Row `p` of block `t` of the aggregated features is row `20000·t + p` of the array: the row the result's
    block has at `p`. -/
theorem read_agg (c : Dev nD) (t : Fin cfg0.N) (p : Fin 20000) (k : Fin 2) (q : Fin 16) :
    V c main_v13 (((cfg0.win 0).blk t).view.emb (ix2 p k))
      = V c main_v13 (ix2 ((((cfg0.win 5).blk t).view.emb (ix2 p q)) 0) k) := by
  obtain ⟨e00, e01, e10, e11, e20, e21, e30, e31, e40, e41, e50, e51, ht⟩ := idx_facts t
  refine congrArg (V c main_v13) (funext fun a => Fin.ext ?_)
  match a with
  | ⟨0, _⟩ => show win0_0.index t (0 : Fin 2) * 20000 + 1 * p.val = win0_5.index t (0 : Fin 2) * 20000 + 1 * p.val; omega
  | ⟨1, _⟩ => show win0_0.index t (1 : Fin 2) * 2 + 1 * k.val = k.val; omega

theorem read_feat (c : Dev nD) (t : Fin cfg0.N) (p : Fin 20000) (k : Fin 2) (q : Fin 16) :
    V c main_arg0 (((cfg0.win 1).blk t).view.emb (ix2 p k))
      = V c main_arg0 (ix2 ((((cfg0.win 5).blk t).view.emb (ix2 p q)) 0) k) := by
  obtain ⟨e00, e01, e10, e11, e20, e21, e30, e31, e40, e41, e50, e51, ht⟩ := idx_facts t
  refine congrArg (V c main_arg0) (funext fun a => Fin.ext ?_)
  match a with
  | ⟨0, _⟩ => show win0_1.index t (0 : Fin 2) * 20000 + 1 * p.val = win0_5.index t (0 : Fin 2) * 20000 + 1 * p.val; omega
  | ⟨1, _⟩ => show win0_1.index t (1 : Fin 2) * 2 + 1 * k.val = k.val; omega

/-- The weight blocks are the whole matrices; column `q` of the block is the column the result's block has at `q`. -/
theorem read_wrel (c : Dev nD) (t : Fin cfg0.N) (p : Fin 20000) (k : Fin 2) (q : Fin 16) :
    V c main_arg2 (((cfg0.win 2).blk t).view.emb (ix2 k q))
      = V c main_arg2 (ix2 k ((((cfg0.win 5).blk t).view.emb (ix2 p q)) 1)) := by
  obtain ⟨e00, e01, e10, e11, e20, e21, e30, e31, e40, e41, e50, e51, ht⟩ := idx_facts t
  refine congrArg (V c main_arg2) (funext fun a => Fin.ext ?_)
  match a with
  | ⟨0, _⟩ => show win0_2.index t (0 : Fin 2) * 2 + 1 * k.val = k.val; omega
  | ⟨1, _⟩ => show win0_2.index t (1 : Fin 2) * 16 + 1 * q.val = win0_5.index t (1 : Fin 2) * 16 + 1 * q.val; omega

theorem read_wroot (c : Dev nD) (t : Fin cfg0.N) (p : Fin 20000) (k : Fin 2) (q : Fin 16) :
    V c main_arg4 (((cfg0.win 4).blk t).view.emb (ix2 k q))
      = V c main_arg4 (ix2 k ((((cfg0.win 5).blk t).view.emb (ix2 p q)) 1)) := by
  obtain ⟨e00, e01, e10, e11, e20, e21, e30, e31, e40, e41, e50, e51, ht⟩ := idx_facts t
  refine congrArg (V c main_arg4) (funext fun a => Fin.ext ?_)
  match a with
  | ⟨0, _⟩ => show win0_4.index t (0 : Fin 2) * 2 + 1 * k.val = k.val; omega
  | ⟨1, _⟩ => show win0_4.index t (1 : Fin 2) * 16 + 1 * q.val = win0_5.index t (1 : Fin 2) * 16 + 1 * q.val; omega

theorem read_bias (c : Dev nD) (t : Fin cfg0.N) (p : Fin 20000) (q : Fin 16) :
    V c main_v14 (((cfg0.win 3).blk t).view.emb (ix2 (0 : Fin 1) q))
      = V c main_v14 (ix2 (0 : Fin 1) ((((cfg0.win 5).blk t).view.emb (ix2 p q)) 1)) := by
  obtain ⟨e00, e01, e10, e11, e20, e21, e30, e31, e40, e41, e50, e51, ht⟩ := idx_facts t
  refine congrArg (V c main_v14) (funext fun a => Fin.ext ?_)
  match a with
  | ⟨0, _⟩ => show win0_3.index t (0 : Fin 2) * 1 + 1 * 0 = 0; omega
  | ⟨1, _⟩ => show win0_3.index t (1 : Fin 2) * 16 + 1 * q.val = win0_5.index t (1 : Fin 2) * 16 + 1 * q.val; omega

/-- The whole-array function the call computes, of the arrays as it finds them. -/
abbrev result (c : Dev nD) : FVec Ideal S100000x16 .f32 :=
  convRow (M := 100000) (K := 2) (N := 16) (V c main_v13) (V c main_arg0) (V c main_arg2) (V c main_arg4) (V c main_v14)

/-- What point `t` writes back is block `t` of that function. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero origin]
  simp only [View.ld_unit_zero (S := S20000x2) origin, View.ld_unit_zero (S := S2x16) origin, View.ld_unit_zero (S := S1x16) origin]
  funext j
  obtain ⟨p, q, rfl⟩ : ∃ (p : Fin 20000) (q : Fin 16), j = ix2 p q := ⟨j 0, j 1, eq_ix2 j⟩
  refine (pay_apply (iblk0 V c 0 t) (iblk0 V c 1 t) (iblk0 V c 2 t) (iblk0 V c 4 t) (iblk0 V c 3 t) p q).trans ?_
  refine congrArg₂ max (congrArg₂ (· + ·) (congrArg₂ (· + ·) ?_ ?_) ?_) rfl
  · exact Finset.sum_congr rfl fun k _ => congrArg₂ (· * ·) (read_agg V c t p k q) (read_wrel V c t p k q)
  · exact Finset.sum_congr rfl fun k _ => congrArg₂ (· * ·) (read_feat V c t p k q) (read_wroot V c t p k q)
  · exact read_bias V c t p q

/-- An entry of the result array is in block `t` exactly when its row is one of the block's rows. -/
theorem mem_blk (t : Fin cfg0.N) (i : S100000x16.Idx) :
    i ∈ ((cfg0.win 5).blk t).view.set ↔ ∀ a : Fin 2, win0_5.index t a * S20000x16.size a ≤ (i a).val
      ∧ (i a).val < win0_5.index t a * S20000x16.size a + S20000x16.size a := by
  show i ∈ ((View.whole main_v15).slice (win0_5.rect t)).set ↔ _
  rw [View.set_slice_whole, Rect.mem_set_unit]
  exact Iff.rfl

/-- Row `r` is in block `r / 20000`: the blocks tile the array. -/
theorem cover (i : S100000x16.Idx) :
    ∃ t : Fin cfg0.N, (cfg0.win 5).flush t = true ∧ i ∈ ((cfg0.win 5).blk t).view.set := by
  have hi0 : (i 0).val < 100000 := (i 0).isLt
  have hi1 : (i 1).val < 16 := (i 1).isLt
  have hN : (i 0).val / 20000 < grid0.N := by rw [N_0]; omega
  obtain ⟨e00, e01, e10, e11, e20, e21, e30, e31, e40, e41, e50, e51, ht⟩ := idx_facts ⟨(i 0).val / 20000, hN⟩
  refine ⟨⟨(i 0).val / 20000, hN⟩, flush0_5 _, ?_⟩
  rw [mem_blk]
  intro a
  match a with
  | ⟨0, _⟩ =>
    show win0_5.index ⟨(i 0).val / 20000, hN⟩ (0 : Fin 2) * 20000 ≤ (i 0).val
      ∧ (i 0).val < win0_5.index ⟨(i 0).val / 20000, hN⟩ (0 : Fin 2) * 20000 + 20000
    have e : win0_5.index ⟨(i 0).val / 20000, hN⟩ (0 : Fin 2) = (i 0).val / 20000 := e50
    omega
  | ⟨1, _⟩ =>
    show win0_5.index ⟨(i 0).val / 20000, hN⟩ (1 : Fin 2) * 16 ≤ (i 1).val
      ∧ (i 1).val < win0_5.index ⟨(i 0).val / 20000, hN⟩ (1 : Fin 2) * 16 + 16
    omega

/-- The result array after the call. -/
theorem final (c : Dev nD) : (dat0 V c).arrAt 5 cfg0.N = result V c :=
  (dat0 V c).arrAt_eq_of_cover 5 (result V c) (fun t _ => flushed_eq V c t) cover

end Cert.KernelIdeal.Layer0

end
-- ==== Proof.Layer1.lean ====
import proofs.«155998_j81990925680800_1_alg».proof.Proof.Gen.KernelIdeal.Frame
import proofs.«155998_j81990925680800_1_alg».proof.Proof.LayerMath
import Idealize.ShloMosaic.Lib.Pipeline.Value
import Idealize.ShloMosaic.Lib.ValueIdx

set_option maxRecDepth 16384

noncomputable section

open scoped BigOperators

/-! # What the second graph-convolution call leaves in its result array

The call runs on five blocks of 20000 rows. At block `t` the body reads rows `20000·t …` of the aggregated
features and of the node features, the two whole weight matrices and the whole bias row, and stores the layer's
value on those rows. So what block `t` writes back is rows `20000·t …` of ONE whole-array function, the layer
`GraphLayers.convRow` of the arrays as the call finds them; the five blocks tile the result array, which
therefore ends holding that function. -/

namespace Cert.KernelIdeal.Layer1

open Cert.KernelIdeal Cert.KernelIdeal.Gen Cert.GraphLayers
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the row-blocked windows sit at block `(t, 0)`, the others at `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 5 :=
  (by decide +kernel : ∀ t : Fin grid1.N, _)

/-- The body's stored value at entry `(p, q)` of the block, from the blocks it loads. -/
theorem pay_apply (x0 x1 : Vec Ideal S20000x16 .f32) (x2 x4 : Vec Ideal S16x16 .f32) (x3 : Vec Ideal S1x16 .f32)
    (p : Fin 20000) (q : Fin 16) :
    k1_pay1 x0 x1 x2 x4 x3 (ix2 p q)
      = max ((∑ k : Fin 16, x0 (ix2 p k) * x2 (ix2 k q) + ∑ k : Fin 16, x1 (ix2 p k) * x4 (ix2 k q)) + x3 (ix2 (0 : Fin 1) q))
          (Ideal.ofBits .f32 0x00000000#32) := by
  unfold k1_pay1
  simp only [shapeCast_self]
  exact conv_block_apply dot_S20000x16_S16x16_S20000x16_1_0_0_1_n_n rfl broadcasts_S1x16_S20000x16 bitsLt_bf16_f32 x0 x1 x2 x4 x3 p q

/-- Row `p` of block `t` of the aggregated features is row `20000·t + p` of the array: the row the result's
    block has at `p`. -/
theorem read_agg (c : Dev nD) (t : Fin cfg1.N) (p : Fin 20000) (k : Fin 16) (q : Fin 16) :
    V c main_v25 (((cfg1.win 0).blk t).view.emb (ix2 p k))
      = V c main_v25 (ix2 ((((cfg1.win 5).blk t).view.emb (ix2 p q)) 0) k) := by
  obtain ⟨e00, e01, e10, e11, e20, e21, e30, e31, e40, e41, e50, e51, ht⟩ := idx_facts t
  refine congrArg (V c main_v25) (funext fun a => Fin.ext ?_)
  match a with
  | ⟨0, _⟩ => show win1_0.index t (0 : Fin 2) * 20000 + 1 * p.val = win1_5.index t (0 : Fin 2) * 20000 + 1 * p.val; omega
  | ⟨1, _⟩ => show win1_0.index t (1 : Fin 2) * 16 + 1 * k.val = k.val; omega

theorem read_feat (c : Dev nD) (t : Fin cfg1.N) (p : Fin 20000) (k : Fin 16) (q : Fin 16) :
    V c main_v15 (((cfg1.win 1).blk t).view.emb (ix2 p k))
      = V c main_v15 (ix2 ((((cfg1.win 5).blk t).view.emb (ix2 p q)) 0) k) := by
  obtain ⟨e00, e01, e10, e11, e20, e21, e30, e31, e40, e41, e50, e51, ht⟩ := idx_facts t
  refine congrArg (V c main_v15) (funext fun a => Fin.ext ?_)
  match a with
  | ⟨0, _⟩ => show win1_1.index t (0 : Fin 2) * 20000 + 1 * p.val = win1_5.index t (0 : Fin 2) * 20000 + 1 * p.val; omega
  | ⟨1, _⟩ => show win1_1.index t (1 : Fin 2) * 16 + 1 * k.val = k.val; omega

/-- The weight blocks are the whole matrices; column `q` of the block is the column the result's block has at `q`. -/
theorem read_wrel (c : Dev nD) (t : Fin cfg1.N) (p : Fin 20000) (k : Fin 16) (q : Fin 16) :
    V c main_arg5 (((cfg1.win 2).blk t).view.emb (ix2 k q))
      = V c main_arg5 (ix2 k ((((cfg1.win 5).blk t).view.emb (ix2 p q)) 1)) := by
  obtain ⟨e00, e01, e10, e11, e20, e21, e30, e31, e40, e41, e50, e51, ht⟩ := idx_facts t
  refine congrArg (V c main_arg5) (funext fun a => Fin.ext ?_)
  match a with
  | ⟨0, _⟩ => show win1_2.index t (0 : Fin 2) * 16 + 1 * k.val = k.val; omega
  | ⟨1, _⟩ => show win1_2.index t (1 : Fin 2) * 16 + 1 * q.val = win1_5.index t (1 : Fin 2) * 16 + 1 * q.val; omega

theorem read_wroot (c : Dev nD) (t : Fin cfg1.N) (p : Fin 20000) (k : Fin 16) (q : Fin 16) :
    V c main_arg7 (((cfg1.win 4).blk t).view.emb (ix2 k q))
      = V c main_arg7 (ix2 k ((((cfg1.win 5).blk t).view.emb (ix2 p q)) 1)) := by
  obtain ⟨e00, e01, e10, e11, e20, e21, e30, e31, e40, e41, e50, e51, ht⟩ := idx_facts t
  refine congrArg (V c main_arg7) (funext fun a => Fin.ext ?_)
  match a with
  | ⟨0, _⟩ => show win1_4.index t (0 : Fin 2) * 16 + 1 * k.val = k.val; omega
  | ⟨1, _⟩ => show win1_4.index t (1 : Fin 2) * 16 + 1 * q.val = win1_5.index t (1 : Fin 2) * 16 + 1 * q.val; omega

theorem read_bias (c : Dev nD) (t : Fin cfg1.N) (p : Fin 20000) (q : Fin 16) :
    V c main_v26 (((cfg1.win 3).blk t).view.emb (ix2 (0 : Fin 1) q))
      = V c main_v26 (ix2 (0 : Fin 1) ((((cfg1.win 5).blk t).view.emb (ix2 p q)) 1)) := by
  obtain ⟨e00, e01, e10, e11, e20, e21, e30, e31, e40, e41, e50, e51, ht⟩ := idx_facts t
  refine congrArg (V c main_v26) (funext fun a => Fin.ext ?_)
  match a with
  | ⟨0, _⟩ => show win1_3.index t (0 : Fin 2) * 1 + 1 * 0 = 0; omega
  | ⟨1, _⟩ => show win1_3.index t (1 : Fin 2) * 16 + 1 * q.val = win1_5.index t (1 : Fin 2) * 16 + 1 * q.val; omega

/-- The whole-array function the call computes, of the arrays as it finds them. -/
abbrev result (c : Dev nD) : FVec Ideal S100000x16 .f32 :=
  convRow (M := 100000) (K := 16) (N := 16) (V c main_v25) (V c main_v15) (V c main_arg5) (V c main_arg7) (V c main_v26)

/-- What point `t` writes back is block `t` of that function. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero origin]
  simp only [View.ld_unit_zero (S := S20000x16) origin, View.ld_unit_zero (S := S16x16) origin, View.ld_unit_zero (S := S1x16) origin]
  funext j
  obtain ⟨p, q, rfl⟩ : ∃ (p : Fin 20000) (q : Fin 16), j = ix2 p q := ⟨j 0, j 1, eq_ix2 j⟩
  refine (pay_apply (iblk1 V c 0 t) (iblk1 V c 1 t) (iblk1 V c 2 t) (iblk1 V c 4 t) (iblk1 V c 3 t) p q).trans ?_
  refine congrArg₂ max (congrArg₂ (· + ·) (congrArg₂ (· + ·) ?_ ?_) ?_) rfl
  · exact Finset.sum_congr rfl fun k _ => congrArg₂ (· * ·) (read_agg V c t p k q) (read_wrel V c t p k q)
  · exact Finset.sum_congr rfl fun k _ => congrArg₂ (· * ·) (read_feat V c t p k q) (read_wroot V c t p k q)
  · exact read_bias V c t p q

/-- An entry of the result array is in block `t` exactly when its row is one of the block's rows. -/
theorem mem_blk (t : Fin cfg1.N) (i : S100000x16.Idx) :
    i ∈ ((cfg1.win 5).blk t).view.set ↔ ∀ a : Fin 2, win1_5.index t a * S20000x16.size a ≤ (i a).val
      ∧ (i a).val < win1_5.index t a * S20000x16.size a + S20000x16.size a := by
  show i ∈ ((View.whole main_v27).slice (win1_5.rect t)).set ↔ _
  rw [View.set_slice_whole, Rect.mem_set_unit]
  exact Iff.rfl

/-- Row `r` is in block `r / 20000`: the blocks tile the array. -/
theorem cover (i : S100000x16.Idx) :
    ∃ t : Fin cfg1.N, (cfg1.win 5).flush t = true ∧ i ∈ ((cfg1.win 5).blk t).view.set := by
  have hi0 : (i 0).val < 100000 := (i 0).isLt
  have hi1 : (i 1).val < 16 := (i 1).isLt
  have hN : (i 0).val / 20000 < grid1.N := by rw [N_1]; omega
  obtain ⟨e00, e01, e10, e11, e20, e21, e30, e31, e40, e41, e50, e51, ht⟩ := idx_facts ⟨(i 0).val / 20000, hN⟩
  refine ⟨⟨(i 0).val / 20000, hN⟩, flush1_5 _, ?_⟩
  rw [mem_blk]
  intro a
  match a with
  | ⟨0, _⟩ =>
    show win1_5.index ⟨(i 0).val / 20000, hN⟩ (0 : Fin 2) * 20000 ≤ (i 0).val
      ∧ (i 0).val < win1_5.index ⟨(i 0).val / 20000, hN⟩ (0 : Fin 2) * 20000 + 20000
    have e : win1_5.index ⟨(i 0).val / 20000, hN⟩ (0 : Fin 2) = (i 0).val / 20000 := e50
    omega
  | ⟨1, _⟩ =>
    show win1_5.index ⟨(i 0).val / 20000, hN⟩ (1 : Fin 2) * 16 ≤ (i 1).val
      ∧ (i 1).val < win1_5.index ⟨(i 0).val / 20000, hN⟩ (1 : Fin 2) * 16 + 16
    omega

/-- The result array after the call. -/
theorem final (c : Dev nD) : (dat1 V c).arrAt 5 cfg1.N = result V c :=
  (dat1 V c).arrAt_eq_of_cover 5 (result V c) (fun t _ => flushed_eq V c t) cover

end Cert.KernelIdeal.Layer1

end
-- ==== Proof.Layer2.lean ====
import proofs.«155998_j81990925680800_1_alg».proof.Proof.Gen.KernelIdeal.Frame
import proofs.«155998_j81990925680800_1_alg».proof.Proof.LayerMath
import Idealize.ShloMosaic.Lib.Pipeline.Value
import Idealize.ShloMosaic.Lib.ValueIdx

set_option maxRecDepth 16384

noncomputable section

open scoped BigOperators

/-! # What the third graph-convolution call leaves in its result array

The call runs on five blocks of 20000 rows. At block `t` the body reads rows `20000·t …` of the aggregated
features and of the node features, the two whole weight matrices and the whole bias row, and stores the layer's
value on those rows. So what block `t` writes back is rows `20000·t …` of ONE whole-array function, the layer
`GraphLayers.convRow` of the arrays as the call finds them; the five blocks tile the result array, which
therefore ends holding that function. -/

namespace Cert.KernelIdeal.Layer2

open Cert.KernelIdeal Cert.KernelIdeal.Gen Cert.GraphLayers
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the row-blocked windows sit at block `(t, 0)`, the others at `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ t.val < 5 :=
  (by decide +kernel : ∀ t : Fin grid2.N, _)

/-- The body's stored value at entry `(p, q)` of the block, from the blocks it loads. -/
theorem pay_apply (x0 x1 : Vec Ideal S20000x16 .f32) (x2 x4 : Vec Ideal S16x16 .f32) (x3 : Vec Ideal S1x16 .f32)
    (p : Fin 20000) (q : Fin 16) :
    k2_pay1 x0 x1 x2 x4 x3 (ix2 p q)
      = max ((∑ k : Fin 16, x0 (ix2 p k) * x2 (ix2 k q) + ∑ k : Fin 16, x1 (ix2 p k) * x4 (ix2 k q)) + x3 (ix2 (0 : Fin 1) q))
          (Ideal.ofBits .f32 0x00000000#32) := by
  unfold k2_pay1
  simp only [shapeCast_self]
  exact conv_block_apply dot_S20000x16_S16x16_S20000x16_1_0_0_1_n_n rfl broadcasts_S1x16_S20000x16 bitsLt_bf16_f32 x0 x1 x2 x4 x3 p q

/-- Row `p` of block `t` of the aggregated features is row `20000·t + p` of the array: the row the result's
    block has at `p`. -/
theorem read_agg (c : Dev nD) (t : Fin cfg2.N) (p : Fin 20000) (k : Fin 16) (q : Fin 16) :
    V c main_v37 (((cfg2.win 0).blk t).view.emb (ix2 p k))
      = V c main_v37 (ix2 ((((cfg2.win 5).blk t).view.emb (ix2 p q)) 0) k) := by
  obtain ⟨e00, e01, e10, e11, e20, e21, e30, e31, e40, e41, e50, e51, ht⟩ := idx_facts t
  refine congrArg (V c main_v37) (funext fun a => Fin.ext ?_)
  match a with
  | ⟨0, _⟩ => show win2_0.index t (0 : Fin 2) * 20000 + 1 * p.val = win2_5.index t (0 : Fin 2) * 20000 + 1 * p.val; omega
  | ⟨1, _⟩ => show win2_0.index t (1 : Fin 2) * 16 + 1 * k.val = k.val; omega

theorem read_feat (c : Dev nD) (t : Fin cfg2.N) (p : Fin 20000) (k : Fin 16) (q : Fin 16) :
    V c main_v27 (((cfg2.win 1).blk t).view.emb (ix2 p k))
      = V c main_v27 (ix2 ((((cfg2.win 5).blk t).view.emb (ix2 p q)) 0) k) := by
  obtain ⟨e00, e01, e10, e11, e20, e21, e30, e31, e40, e41, e50, e51, ht⟩ := idx_facts t
  refine congrArg (V c main_v27) (funext fun a => Fin.ext ?_)
  match a with
  | ⟨0, _⟩ => show win2_1.index t (0 : Fin 2) * 20000 + 1 * p.val = win2_5.index t (0 : Fin 2) * 20000 + 1 * p.val; omega
  | ⟨1, _⟩ => show win2_1.index t (1 : Fin 2) * 16 + 1 * k.val = k.val; omega

/-- The weight blocks are the whole matrices; column `q` of the block is the column the result's block has at `q`. -/
theorem read_wrel (c : Dev nD) (t : Fin cfg2.N) (p : Fin 20000) (k : Fin 16) (q : Fin 16) :
    V c main_arg8 (((cfg2.win 2).blk t).view.emb (ix2 k q))
      = V c main_arg8 (ix2 k ((((cfg2.win 5).blk t).view.emb (ix2 p q)) 1)) := by
  obtain ⟨e00, e01, e10, e11, e20, e21, e30, e31, e40, e41, e50, e51, ht⟩ := idx_facts t
  refine congrArg (V c main_arg8) (funext fun a => Fin.ext ?_)
  match a with
  | ⟨0, _⟩ => show win2_2.index t (0 : Fin 2) * 16 + 1 * k.val = k.val; omega
  | ⟨1, _⟩ => show win2_2.index t (1 : Fin 2) * 16 + 1 * q.val = win2_5.index t (1 : Fin 2) * 16 + 1 * q.val; omega

theorem read_wroot (c : Dev nD) (t : Fin cfg2.N) (p : Fin 20000) (k : Fin 16) (q : Fin 16) :
    V c main_arg10 (((cfg2.win 4).blk t).view.emb (ix2 k q))
      = V c main_arg10 (ix2 k ((((cfg2.win 5).blk t).view.emb (ix2 p q)) 1)) := by
  obtain ⟨e00, e01, e10, e11, e20, e21, e30, e31, e40, e41, e50, e51, ht⟩ := idx_facts t
  refine congrArg (V c main_arg10) (funext fun a => Fin.ext ?_)
  match a with
  | ⟨0, _⟩ => show win2_4.index t (0 : Fin 2) * 16 + 1 * k.val = k.val; omega
  | ⟨1, _⟩ => show win2_4.index t (1 : Fin 2) * 16 + 1 * q.val = win2_5.index t (1 : Fin 2) * 16 + 1 * q.val; omega

theorem read_bias (c : Dev nD) (t : Fin cfg2.N) (p : Fin 20000) (q : Fin 16) :
    V c main_v38 (((cfg2.win 3).blk t).view.emb (ix2 (0 : Fin 1) q))
      = V c main_v38 (ix2 (0 : Fin 1) ((((cfg2.win 5).blk t).view.emb (ix2 p q)) 1)) := by
  obtain ⟨e00, e01, e10, e11, e20, e21, e30, e31, e40, e41, e50, e51, ht⟩ := idx_facts t
  refine congrArg (V c main_v38) (funext fun a => Fin.ext ?_)
  match a with
  | ⟨0, _⟩ => show win2_3.index t (0 : Fin 2) * 1 + 1 * 0 = 0; omega
  | ⟨1, _⟩ => show win2_3.index t (1 : Fin 2) * 16 + 1 * q.val = win2_5.index t (1 : Fin 2) * 16 + 1 * q.val; omega

/-- The whole-array function the call computes, of the arrays as it finds them. -/
abbrev result (c : Dev nD) : FVec Ideal S100000x16 .f32 :=
  convRow (M := 100000) (K := 16) (N := 16) (V c main_v37) (V c main_v27) (V c main_arg8) (V c main_arg10) (V c main_v38)

/-- What point `t` writes back is block `t` of that function. -/
theorem flushed_eq (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero origin]
  simp only [View.ld_unit_zero (S := S20000x16) origin, View.ld_unit_zero (S := S16x16) origin, View.ld_unit_zero (S := S1x16) origin]
  funext j
  obtain ⟨p, q, rfl⟩ : ∃ (p : Fin 20000) (q : Fin 16), j = ix2 p q := ⟨j 0, j 1, eq_ix2 j⟩
  refine (pay_apply (iblk2 V c 0 t) (iblk2 V c 1 t) (iblk2 V c 2 t) (iblk2 V c 4 t) (iblk2 V c 3 t) p q).trans ?_
  refine congrArg₂ max (congrArg₂ (· + ·) (congrArg₂ (· + ·) ?_ ?_) ?_) rfl
  · exact Finset.sum_congr rfl fun k _ => congrArg₂ (· * ·) (read_agg V c t p k q) (read_wrel V c t p k q)
  · exact Finset.sum_congr rfl fun k _ => congrArg₂ (· * ·) (read_feat V c t p k q) (read_wroot V c t p k q)
  · exact read_bias V c t p q

/-- An entry of the result array is in block `t` exactly when its row is one of the block's rows. -/
theorem mem_blk (t : Fin cfg2.N) (i : S100000x16.Idx) :
    i ∈ ((cfg2.win 5).blk t).view.set ↔ ∀ a : Fin 2, win2_5.index t a * S20000x16.size a ≤ (i a).val
      ∧ (i a).val < win2_5.index t a * S20000x16.size a + S20000x16.size a := by
  show i ∈ ((View.whole main_v39).slice (win2_5.rect t)).set ↔ _
  rw [View.set_slice_whole, Rect.mem_set_unit]
  exact Iff.rfl

/-- Row `r` is in block `r / 20000`: the blocks tile the array. -/
theorem cover (i : S100000x16.Idx) :
    ∃ t : Fin cfg2.N, (cfg2.win 5).flush t = true ∧ i ∈ ((cfg2.win 5).blk t).view.set := by
  have hi0 : (i 0).val < 100000 := (i 0).isLt
  have hi1 : (i 1).val < 16 := (i 1).isLt
  have hN : (i 0).val / 20000 < grid2.N := by rw [N_2]; omega
  obtain ⟨e00, e01, e10, e11, e20, e21, e30, e31, e40, e41, e50, e51, ht⟩ := idx_facts ⟨(i 0).val / 20000, hN⟩
  refine ⟨⟨(i 0).val / 20000, hN⟩, flush2_5 _, ?_⟩
  rw [mem_blk]
  intro a
  match a with
  | ⟨0, _⟩ =>
    show win2_5.index ⟨(i 0).val / 20000, hN⟩ (0 : Fin 2) * 20000 ≤ (i 0).val
      ∧ (i 0).val < win2_5.index ⟨(i 0).val / 20000, hN⟩ (0 : Fin 2) * 20000 + 20000
    have e : win2_5.index ⟨(i 0).val / 20000, hN⟩ (0 : Fin 2) = (i 0).val / 20000 := e50
    omega
  | ⟨1, _⟩ =>
    show win2_5.index ⟨(i 0).val / 20000, hN⟩ (1 : Fin 2) * 16 ≤ (i 1).val
      ∧ (i 1).val < win2_5.index ⟨(i 0).val / 20000, hN⟩ (1 : Fin 2) * 16 + 16
    omega

/-- The result array after the call. -/
theorem final (c : Dev nD) : (dat2 V c).arrAt 5 cfg2.N = result V c :=
  (dat2 V c).arrAt_eq_of_cover 5 (result V c) (fun t _ => flushed_eq V c t) cover

end Cert.KernelIdeal.Layer2

end
-- ==== Proof.Layer3.lean ====
import proofs.«155998_j81990925680800_1_alg».proof.Proof.Gen.KernelIdeal.Frame
import proofs.«155998_j81990925680800_1_alg».proof.Proof.LayerMath
import Idealize.ShloMosaic.Lib.Pipeline.Value
import Idealize.ShloMosaic.Lib.ValueIdx

set_option maxRecDepth 16384

noncomputable section

open scoped BigOperators

/-! # What the head's call leaves in its result array

The call runs on five blocks of 20000 rows. At block `t` the body reads rows `20000·t …` of the node features, the
two whole weight matrices and the two whole bias rows, and stores the head's value on those rows. So what block `t`
writes back is rows `20000·t …` of ONE whole-array function, the head `GraphLayers.headRow` of the arrays as the call
finds them; the five blocks tile the result array, which therefore ends holding that function. -/

namespace Cert.KernelIdeal.Layer3

open Cert.KernelIdeal Cert.KernelIdeal.Gen Cert.GraphLayers
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the row-blocked windows sit at block `(t, 0)`, the others at `(0, 0)`. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 ∧ t.val < 5 :=
  (by decide +kernel : ∀ t : Fin grid3.N, _)

/-- The body's stored value at entry `(p, q)` of the block, from the blocks it loads. -/
theorem pay_apply (x0 : Vec Ideal S20000x16 .f32) (x1 : Vec Ideal S16x16 .f32) (x2 : Vec Ideal S1x16 .f32)
    (x3 : Vec Ideal S16x1 .f32) (x4 : Vec Ideal S1x1 .f32) (p : Fin 20000) (q : Fin 1) :
    k3_pay1 x0 x1 x2 x3 x4 (ix2 p q)
      = (∑ k : Fin 16, max (∑ l : Fin 16, x0 (ix2 p l) * x1 (ix2 l k) + x2 (ix2 (0 : Fin 1) k)) (Ideal.ofBits .f32 0x00000000#32)
            * x3 (ix2 k q))
          + x4 (ix2 (0 : Fin 1) q) := by
  unfold k3_pay1
  simp only [shapeCast_self]
  exact head_block_apply dot_S20000x16_S16x16_S20000x16_1_0_0_1_n_n rfl dot_S20000x16_S16x1_S20000x1_1_0_0_1_n_n rfl
    broadcasts_S1x16_S20000x16 broadcasts_S1x1_S20000x1 bitsLt_bf16_f32 x0 x1 x2 x3 x4 p q

/-- Row `p` of block `t` of the node features is row `20000·t + p` of the array: the row the result's block has
    at `p`. -/
theorem read_feat (c : Dev nD) (t : Fin cfg3.N) (p : Fin 20000) (l : Fin 16) (q : Fin 1) :
    V c main_v39 (((cfg3.win 0).blk t).view.emb (ix2 p l))
      = V c main_v39 (ix2 ((((cfg3.win 5).blk t).view.emb (ix2 p q)) 0) l) := by
  obtain ⟨e00, e01, e10, e11, e20, e21, e30, e31, e40, e41, e50, e51, ht⟩ := idx_facts t
  refine congrArg (V c main_v39) (funext fun a => Fin.ext ?_)
  match a with
  | ⟨0, _⟩ => show win3_0.index t (0 : Fin 2) * 20000 + 1 * p.val = win3_5.index t (0 : Fin 2) * 20000 + 1 * p.val; omega
  | ⟨1, _⟩ => show win3_0.index t (1 : Fin 2) * 16 + 1 * l.val = l.val; omega

/-- The first weight block is the whole matrix. -/
theorem read_w1 (c : Dev nD) (t : Fin cfg3.N) (l k : Fin 16) :
    V c main_arg11 (((cfg3.win 1).blk t).view.emb (ix2 l k)) = V c main_arg11 (ix2 l k) := by
  obtain ⟨e00, e01, e10, e11, e20, e21, e30, e31, e40, e41, e50, e51, ht⟩ := idx_facts t
  refine congrArg (V c main_arg11) (funext fun a => Fin.ext ?_)
  match a with
  | ⟨0, _⟩ => show win3_1.index t (0 : Fin 2) * 16 + 1 * l.val = l.val; omega
  | ⟨1, _⟩ => show win3_1.index t (1 : Fin 2) * 16 + 1 * k.val = k.val; omega

/-- The first bias block is the whole row. -/
theorem read_b1 (c : Dev nD) (t : Fin cfg3.N) (k : Fin 16) :
    V c main_v40 (((cfg3.win 2).blk t).view.emb (ix2 (0 : Fin 1) k)) = V c main_v40 (ix2 (0 : Fin 1) k) := by
  obtain ⟨e00, e01, e10, e11, e20, e21, e30, e31, e40, e41, e50, e51, ht⟩ := idx_facts t
  refine congrArg (V c main_v40) (funext fun a => Fin.ext ?_)
  match a with
  | ⟨0, _⟩ => show win3_2.index t (0 : Fin 2) * 1 + 1 * 0 = 0; omega
  | ⟨1, _⟩ => show win3_2.index t (1 : Fin 2) * 16 + 1 * k.val = k.val; omega

/-- The second weight block is the whole matrix; its column is the column the result's block has at `q`. -/
theorem read_w2 (c : Dev nD) (t : Fin cfg3.N) (p : Fin 20000) (k : Fin 16) (q : Fin 1) :
    V c main_arg13 (((cfg3.win 3).blk t).view.emb (ix2 k q))
      = V c main_arg13 (ix2 k ((((cfg3.win 5).blk t).view.emb (ix2 p q)) 1)) := by
  obtain ⟨e00, e01, e10, e11, e20, e21, e30, e31, e40, e41, e50, e51, ht⟩ := idx_facts t
  refine congrArg (V c main_arg13) (funext fun a => Fin.ext ?_)
  match a with
  | ⟨0, _⟩ => show win3_3.index t (0 : Fin 2) * 16 + 1 * k.val = k.val; omega
  | ⟨1, _⟩ => show win3_3.index t (1 : Fin 2) * 1 + 1 * q.val = win3_5.index t (1 : Fin 2) * 1 + 1 * q.val; omega

theorem read_b2 (c : Dev nD) (t : Fin cfg3.N) (p : Fin 20000) (q : Fin 1) :
    V c main_v41 (((cfg3.win 4).blk t).view.emb (ix2 (0 : Fin 1) q))
      = V c main_v41 (ix2 (0 : Fin 1) ((((cfg3.win 5).blk t).view.emb (ix2 p q)) 1)) := by
  obtain ⟨e00, e01, e10, e11, e20, e21, e30, e31, e40, e41, e50, e51, ht⟩ := idx_facts t
  refine congrArg (V c main_v41) (funext fun a => Fin.ext ?_)
  match a with
  | ⟨0, _⟩ => show win3_4.index t (0 : Fin 2) * 1 + 1 * 0 = 0; omega
  | ⟨1, _⟩ => show win3_4.index t (1 : Fin 2) * 1 + 1 * q.val = win3_5.index t (1 : Fin 2) * 1 + 1 * q.val; omega

/-- The whole-array function the call computes, of the arrays as it finds them. -/
abbrev result (c : Dev nD) : FVec Ideal S100000x1 .f32 :=
  headRow (M := 100000) (K := 16) (N := 16) (P := 1) (V c main_v39) (V c main_arg11) (V c main_v40) (V c main_arg13) (V c main_v41)

/-- What point `t` writes back is block `t` of that function. -/
theorem flushed_eq (c : Dev nD) (t : Fin cfg3.N) :
    (dat3 V c).flushed 5 t = ((cfg3.win 5).blk t).view.read (Elt Ideal) (result V c) := by
  show (cfg3.win 5).cut (grid3.coords t) ((dat3 V c).after 5 t) = _
  rw [after3_5]
  unfold out3_5
  rw [View.canon_unit_zero origin]
  simp only [View.ld_unit_zero (S := S20000x16) origin, View.ld_unit_zero (S := S16x16) origin, View.ld_unit_zero (S := S1x16) origin,
    View.ld_unit_zero (S := S16x1) origin, View.ld_unit_zero (S := S1x1) origin]
  funext j
  obtain ⟨p, q, rfl⟩ : ∃ (p : Fin 20000) (q : Fin 1), j = ix2 p q := ⟨j 0, j 1, eq_ix2 j⟩
  refine (pay_apply (iblk3 V c 0 t) (iblk3 V c 1 t) (iblk3 V c 2 t) (iblk3 V c 3 t) (iblk3 V c 4 t) p q).trans ?_
  refine congrArg₂ (· + ·) (Finset.sum_congr rfl fun k _ => congrArg₂ (· * ·) ?_ (read_w2 V c t p k q)) (read_b2 V c t p q)
  refine congrArg₂ max (congrArg₂ (· + ·) ?_ (read_b1 V c t k)) rfl
  exact Finset.sum_congr rfl fun l _ => congrArg₂ (· * ·) (read_feat V c t p l q) (read_w1 V c t l k)

/-- An entry of the result array is in block `t` exactly when its row is one of the block's rows. -/
theorem mem_blk (t : Fin cfg3.N) (i : S100000x1.Idx) :
    i ∈ ((cfg3.win 5).blk t).view.set ↔ ∀ a : Fin 2, win3_5.index t a * S20000x1.size a ≤ (i a).val
      ∧ (i a).val < win3_5.index t a * S20000x1.size a + S20000x1.size a := by
  show i ∈ ((View.whole main_v42).slice (win3_5.rect t)).set ↔ _
  rw [View.set_slice_whole, Rect.mem_set_unit]
  exact Iff.rfl

/-- Row `r` is in block `r / 20000`: the blocks tile the array. -/
theorem cover (i : S100000x1.Idx) :
    ∃ t : Fin cfg3.N, (cfg3.win 5).flush t = true ∧ i ∈ ((cfg3.win 5).blk t).view.set := by
  have hi0 : (i 0).val < 100000 := (i 0).isLt
  have hi1 : (i 1).val < 1 := (i 1).isLt
  have hN : (i 0).val / 20000 < grid3.N := by rw [N_3]; omega
  obtain ⟨e00, e01, e10, e11, e20, e21, e30, e31, e40, e41, e50, e51, ht⟩ := idx_facts ⟨(i 0).val / 20000, hN⟩
  refine ⟨⟨(i 0).val / 20000, hN⟩, flush3_5 _, ?_⟩
  rw [mem_blk]
  intro a
  match a with
  | ⟨0, _⟩ =>
    show win3_5.index ⟨(i 0).val / 20000, hN⟩ (0 : Fin 2) * 20000 ≤ (i 0).val
      ∧ (i 0).val < win3_5.index ⟨(i 0).val / 20000, hN⟩ (0 : Fin 2) * 20000 + 20000
    have e : win3_5.index ⟨(i 0).val / 20000, hN⟩ (0 : Fin 2) = (i 0).val / 20000 := e50
    omega
  | ⟨1, _⟩ =>
    show win3_5.index ⟨(i 0).val / 20000, hN⟩ (1 : Fin 2) * 1 ≤ (i 1).val
      ∧ (i 1).val < win3_5.index ⟨(i 0).val / 20000, hN⟩ (1 : Fin 2) * 1 + 1
    omega

/-- The result array after the call. -/
theorem final (c : Dev nD) : (dat3 V c).arrAt 5 cfg3.N = result V c :=
  (dat3 V c).arrAt_eq_of_cover 5 (result V c) (fun t _ => flushed_eq V c t) cover

end Cert.KernelIdeal.Layer3

end
-- ==== Proof.KernelValue.lean ====
import proofs.«155998_j81990925680800_1_alg».proof.Proof.Gen.KernelIdeal.Frame
import proofs.«155998_j81990925680800_1_alg».proof.Proof.Layer0
import proofs.«155998_j81990925680800_1_alg».proof.Proof.Layer1
import proofs.«155998_j81990925680800_1_alg».proof.Proof.Layer2
import proofs.«155998_j81990925680800_1_alg».proof.Proof.Layer3
import Idealize.ShloMosaic.Lib.StableHlo.Run

set_option maxRecDepth 16384

noncomputable section

/-! # The kernel program's two results as functions of its arguments

@main alternates host stretches and calls. A host stretch computes the neighbourhood sums of the current node
features (gather at the edges' sources, add into the targets) and casts a bias vector to a row; a call applies
one layer to what the stretch left. Reading each boundary's contents back to the launch memory, buffer by buffer,
gives the node features after each layer and the head's output as closed terms of the fifteen arguments. -/

namespace Cert.KernelIdeal.Chain

open Cert.KernelIdeal Cert.KernelIdeal.Gen Cert.GraphLayers
open Idealize.ShloMosaic Idealize.ShloMosaic.TcCoe Idealize.ShloMosaic.StableHlo
open Idealize.SL.Sem

/-- The edges' source endpoints: row 0 of the edge array. -/
def srcWords (e : IVec S2x3200000 32) : IVec S3200000 32 :=
  shapeCast S3200000 (extractStridedSlice S1x3200000 ![0, 0] e slices_S2x3200000_S1x3200000_0_0) shapeCasts_S1x3200000_S3200000

/-- The edges' target endpoints: row 1 of the edge array. -/
def dstWords (e : IVec S2x3200000 32) : IVec S3200000 32 :=
  shapeCast S3200000 (extractStridedSlice S1x3200000 ![1, 0] e slices_S2x3200000_S1x3200000_1_0) shapeCasts_S1x3200000_S3200000

/-- Neighbourhood sums of two-column features: gather the rows at the sources (a negative word wrapped once),
    add them into the rows at the targets of a zero array. -/
def aggregate2 (s d : IVec S3200000 32) (x : FVec Ideal S100000x2 .f32) : FVec Ideal S100000x2 .f32 :=
  Host.scatterAdd scatter_S100000x2_S3200000x1_S3200000x2_1_0_0_1
    (broadcastInDim S100000x2 ![] bcast_S_S100000x2 (constant S_ .f32 0x00000000#32))
    (broadcastInDim S3200000x1 ![0] bcast_S3200000_S3200000x1_0 d)
    (Host.gather gather_S100000x2_S3200000x1_S3200000x2_1_0_n_n_0_1_12 x
      (broadcastInDim S3200000x1 ![0] bcast_S3200000_S3200000x1_0
        (select (cmpi .slt s (broadcastInDim S3200000 ![] bcast_S_S3200000 (constantI S_ 32 0#32)))
          (addi s (broadcastInDim S3200000 ![] bcast_S_S3200000 (constantI S_ 32 100000#32))) s)))

/-- The same for sixteen-column features. -/
def aggregate16 (s d : IVec S3200000 32) (x : FVec Ideal S100000x16 .f32) : FVec Ideal S100000x16 .f32 :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 d)
    (Host.gather gather_S100000x16_S3200000x1_S3200000x16_1_0_n_n_0_1_116 x
      (broadcastInDim S3200000x1 ![0] bcast_S3200000_S3200000x1_0
        (select (cmpi .slt s (broadcastInDim S3200000 ![] bcast_S_S3200000 (constantI S_ 32 0#32)))
          (addi s (broadcastInDim S3200000 ![] bcast_S_S3200000 (constantI S_ 32 100000#32))) s)))

variable (m : (ℓ : Loc nD τ sig) → Buf (Elt Ideal) ℓ) (ρ : Dev nD → PrngReg)

/-! ## One boundary back: a host stretch leaves a buffer it does not write as it was; so does a call whose windows do
    not stage it -/

/-- Through the first host stretch. -/
macro "back1" : tactic => `(tactic| (show StableHlo.after hostOps0 (W0 _ _ _) _ = _; after_results))
/-- Through the first call. -/
macro "back2" : tactic => `(tactic| rw [W2_of_ne _ _ _ _ (by decide)])
/-- Through the second host stretch. -/
macro "back3" : tactic => `(tactic| (show StableHlo.after hostOps1 (W2 _ _ _) _ = _; after_results))
/-- Through the second call. -/
macro "back4" : tactic => `(tactic| rw [W4_of_ne _ _ _ _ (by decide)])
/-- Through the third host stretch. -/
macro "back5" : tactic => `(tactic| (show StableHlo.after hostOps2 (W4 _ _ _) _ = _; after_results))
/-- Through the third call. -/
macro "back6" : tactic => `(tactic| rw [W6_of_ne _ _ _ _ (by decide)])
/-- Through the last host stretch. -/
macro "back7" : tactic => `(tactic| (show StableHlo.after hostOps3 (W6 _ _ _) _ = _; after_results))

/-! ## The first host stretch and the first call -/

theorem W1_v1 (c : Dev nD) : W1 m ρ c (Proc.devRef .tc main_v1) = srcWords (m ((c : Thread nD τ).loc main_arg1)) := by
  back1
  rfl
theorem W1_v3 (c : Dev nD) : W1 m ρ c (Proc.devRef .tc main_v3) = dstWords (m ((c : Thread nD τ).loc main_arg1)) := by
  back1
  rfl
theorem W1_v14 (c : Dev nD) : W1 m ρ c (Proc.devRef .tc main_v14) = shapeCast S1x16 (m ((c : Thread nD τ).loc main_arg3)) shapeCasts_S16_S1x16 := by
  back1
  rfl
theorem W1_arg0 (c : Dev nD) : W1 m ρ c (Proc.devRef .tc main_arg0) = m ((c : Thread nD τ).loc main_arg0) := by back1
theorem W1_arg2 (c : Dev nD) : W1 m ρ c (Proc.devRef .tc main_arg2) = m ((c : Thread nD τ).loc main_arg2) := by back1
theorem W1_arg4 (c : Dev nD) : W1 m ρ c (Proc.devRef .tc main_arg4) = m ((c : Thread nD τ).loc main_arg4) := by back1
/-- The contents after the stretch's first four operations: the two endpoint rows cut out of the edge array. -/
def Wa (c : Dev nD) : Valuation τ sig (Elt Ideal) := StableHlo.after (hostOps0.take 4) (W0 m ρ c)

/-- The stretch is those four operations and then the rest. -/
theorem W1_split (c : Dev nD) : W1 m ρ c = StableHlo.after (hostOps0.drop 4) (Wa m ρ c) := by
  unfold Wa
  rw [← StableHlo.after_append, List.take_append_drop]

theorem Wa_v1 (c : Dev nD) : Wa m ρ c (Proc.devRef .tc main_v1) = srcWords (m ((c : Thread nD τ).loc main_arg1)) := by
  unfold Wa
  simp only [hostOps0, List.take]
  after_results
  rfl
theorem Wa_v3 (c : Dev nD) : Wa m ρ c (Proc.devRef .tc main_v3) = dstWords (m ((c : Thread nD τ).loc main_arg1)) := by
  unfold Wa
  simp only [hostOps0, List.take]
  after_results
  rfl
theorem Wa_arg0 (c : Dev nD) : Wa m ρ c (Proc.devRef .tc main_arg0) = m ((c : Thread nD τ).loc main_arg0) := by
  unfold Wa
  simp only [hostOps0, List.take]
  after_results

/-- The neighbourhood sums the first call reads, over the endpoint rows the first four operations cut out. -/
theorem W1_v13 (c : Dev nD) : W1 m ρ c (Proc.devRef .tc main_v13)
    = aggregate2 (Wa m ρ c (Proc.devRef .tc main_v1)) (Wa m ρ c (Proc.devRef .tc main_v3)) (Wa m ρ c (Proc.devRef .tc main_arg0)) := by
  rw [W1_split]
  simp only [hostOps0, List.drop]
  after_results
  rfl

/-- The node features after the first layer. -/
def feat1 (c : Dev nD) : FVec Ideal S100000x16 .f32 :=
  convRow (M := 100000) (K := 2) (N := 16)
    (aggregate2 (srcWords (m ((c : Thread nD τ).loc main_arg1))) (dstWords (m ((c : Thread nD τ).loc main_arg1))) (m ((c : Thread nD τ).loc main_arg0)))
    (m ((c : Thread nD τ).loc main_arg0)) (m ((c : Thread nD τ).loc main_arg2)) (m ((c : Thread nD τ).loc main_arg4))
    (shapeCast S1x16 (m ((c : Thread nD τ).loc main_arg3)) shapeCasts_S16_S1x16)

theorem W2_v15 (c : Dev nD) : W2 m ρ c (Proc.devRef .tc main_v15) = feat1 m c := by
  refine (W2_arr m ρ c 5).trans ((Layer0.final (V1 m ρ) c).trans ?_)
  show convRow (M := 100000) (K := 2) (N := 16) (W1 m ρ c (Proc.devRef .tc main_v13)) (W1 m ρ c (Proc.devRef .tc main_arg0)) (W1 m ρ c (Proc.devRef .tc main_arg2))
    (W1 m ρ c (Proc.devRef .tc main_arg4)) (W1 m ρ c (Proc.devRef .tc main_v14)) = _
  rw [W1_v13, Wa_v1, Wa_v3, Wa_arg0, W1_arg0, W1_arg2, W1_arg4, W1_v14]
  rfl

/-! ## What the later stretches and calls read, back to the launch memory -/

theorem W1_arg5 (c : Dev nD) : W1 m ρ c (Proc.devRef .tc main_arg5) = m ((c : Thread nD τ).loc main_arg5) := by back1
theorem W1_arg6 (c : Dev nD) : W1 m ρ c (Proc.devRef .tc main_arg6) = m ((c : Thread nD τ).loc main_arg6) := by back1
theorem W1_arg7 (c : Dev nD) : W1 m ρ c (Proc.devRef .tc main_arg7) = m ((c : Thread nD τ).loc main_arg7) := by back1
theorem W1_arg8 (c : Dev nD) : W1 m ρ c (Proc.devRef .tc main_arg8) = m ((c : Thread nD τ).loc main_arg8) := by back1
theorem W1_arg9 (c : Dev nD) : W1 m ρ c (Proc.devRef .tc main_arg9) = m ((c : Thread nD τ).loc main_arg9) := by back1
theorem W1_arg10 (c : Dev nD) : W1 m ρ c (Proc.devRef .tc main_arg10) = m ((c : Thread nD τ).loc main_arg10) := by back1
theorem W1_arg11 (c : Dev nD) : W1 m ρ c (Proc.devRef .tc main_arg11) = m ((c : Thread nD τ).loc main_arg11) := by back1
theorem W1_arg12 (c : Dev nD) : W1 m ρ c (Proc.devRef .tc main_arg12) = m ((c : Thread nD τ).loc main_arg12) := by back1
theorem W1_arg13 (c : Dev nD) : W1 m ρ c (Proc.devRef .tc main_arg13) = m ((c : Thread nD τ).loc main_arg13) := by back1
theorem W1_arg14 (c : Dev nD) : W1 m ρ c (Proc.devRef .tc main_arg14) = m ((c : Thread nD τ).loc main_arg14) := by back1

theorem W2_v1 (c : Dev nD) : W2 m ρ c (Proc.devRef .tc main_v1) = srcWords (m ((c : Thread nD τ).loc main_arg1)) :=
  (W2_of_ne m ρ c main_v1 (by decide)).trans (W1_v1 m ρ c)
theorem W2_v3 (c : Dev nD) : W2 m ρ c (Proc.devRef .tc main_v3) = dstWords (m ((c : Thread nD τ).loc main_arg1)) :=
  (W2_of_ne m ρ c main_v3 (by decide)).trans (W1_v3 m ρ c)
theorem W2_arg5 (c : Dev nD) : W2 m ρ c (Proc.devRef .tc main_arg5) = m ((c : Thread nD τ).loc main_arg5) := (W2_of_ne m ρ c main_arg5 (by decide)).trans (W1_arg5 m ρ c)
theorem W2_arg6 (c : Dev nD) : W2 m ρ c (Proc.devRef .tc main_arg6) = m ((c : Thread nD τ).loc main_arg6) := (W2_of_ne m ρ c main_arg6 (by decide)).trans (W1_arg6 m ρ c)
theorem W2_arg7 (c : Dev nD) : W2 m ρ c (Proc.devRef .tc main_arg7) = m ((c : Thread nD τ).loc main_arg7) := (W2_of_ne m ρ c main_arg7 (by decide)).trans (W1_arg7 m ρ c)
theorem W2_arg8 (c : Dev nD) : W2 m ρ c (Proc.devRef .tc main_arg8) = m ((c : Thread nD τ).loc main_arg8) := (W2_of_ne m ρ c main_arg8 (by decide)).trans (W1_arg8 m ρ c)
theorem W2_arg9 (c : Dev nD) : W2 m ρ c (Proc.devRef .tc main_arg9) = m ((c : Thread nD τ).loc main_arg9) := (W2_of_ne m ρ c main_arg9 (by decide)).trans (W1_arg9 m ρ c)
theorem W2_arg10 (c : Dev nD) : W2 m ρ c (Proc.devRef .tc main_arg10) = m ((c : Thread nD τ).loc main_arg10) := (W2_of_ne m ρ c main_arg10 (by decide)).trans (W1_arg10 m ρ c)
theorem W2_arg11 (c : Dev nD) : W2 m ρ c (Proc.devRef .tc main_arg11) = m ((c : Thread nD τ).loc main_arg11) := (W2_of_ne m ρ c main_arg11 (by decide)).trans (W1_arg11 m ρ c)
theorem W2_arg12 (c : Dev nD) : W2 m ρ c (Proc.devRef .tc main_arg12) = m ((c : Thread nD τ).loc main_arg12) := (W2_of_ne m ρ c main_arg12 (by decide)).trans (W1_arg12 m ρ c)
theorem W2_arg13 (c : Dev nD) : W2 m ρ c (Proc.devRef .tc main_arg13) = m ((c : Thread nD τ).loc main_arg13) := (W2_of_ne m ρ c main_arg13 (by decide)).trans (W1_arg13 m ρ c)
theorem W2_arg14 (c : Dev nD) : W2 m ρ c (Proc.devRef .tc main_arg14) = m ((c : Thread nD τ).loc main_arg14) := (W2_of_ne m ρ c main_arg14 (by decide)).trans (W1_arg14 m ρ c)

/-! ## The second host stretch and the second call -/

theorem W3_v1 (c : Dev nD) : W3 m ρ c (Proc.devRef .tc main_v1) = srcWords (m ((c : Thread nD τ).loc main_arg1)) := by back3; exact W2_v1 m ρ c
theorem W3_v3 (c : Dev nD) : W3 m ρ c (Proc.devRef .tc main_v3) = dstWords (m ((c : Thread nD τ).loc main_arg1)) := by back3; exact W2_v3 m ρ c
theorem W3_v15 (c : Dev nD) : W3 m ρ c (Proc.devRef .tc main_v15) = feat1 m c := by back3; exact W2_v15 m ρ c
theorem W3_arg5 (c : Dev nD) : W3 m ρ c (Proc.devRef .tc main_arg5) = m ((c : Thread nD τ).loc main_arg5) := by back3; exact W2_arg5 m ρ c
theorem W3_arg7 (c : Dev nD) : W3 m ρ c (Proc.devRef .tc main_arg7) = m ((c : Thread nD τ).loc main_arg7) := by back3; exact W2_arg7 m ρ c
theorem W3_arg8 (c : Dev nD) : W3 m ρ c (Proc.devRef .tc main_arg8) = m ((c : Thread nD τ).loc main_arg8) := by back3; exact W2_arg8 m ρ c
theorem W3_arg9 (c : Dev nD) : W3 m ρ c (Proc.devRef .tc main_arg9) = m ((c : Thread nD τ).loc main_arg9) := by back3; exact W2_arg9 m ρ c
theorem W3_arg10 (c : Dev nD) : W3 m ρ c (Proc.devRef .tc main_arg10) = m ((c : Thread nD τ).loc main_arg10) := by back3; exact W2_arg10 m ρ c
theorem W3_arg11 (c : Dev nD) : W3 m ρ c (Proc.devRef .tc main_arg11) = m ((c : Thread nD τ).loc main_arg11) := by back3; exact W2_arg11 m ρ c
theorem W3_arg12 (c : Dev nD) : W3 m ρ c (Proc.devRef .tc main_arg12) = m ((c : Thread nD τ).loc main_arg12) := by back3; exact W2_arg12 m ρ c
theorem W3_arg13 (c : Dev nD) : W3 m ρ c (Proc.devRef .tc main_arg13) = m ((c : Thread nD τ).loc main_arg13) := by back3; exact W2_arg13 m ρ c
theorem W3_arg14 (c : Dev nD) : W3 m ρ c (Proc.devRef .tc main_arg14) = m ((c : Thread nD τ).loc main_arg14) := by back3; exact W2_arg14 m ρ c
theorem W3_v26 (c : Dev nD) : W3 m ρ c (Proc.devRef .tc main_v26) = shapeCast S1x16 (m ((c : Thread nD τ).loc main_arg6)) shapeCasts_S16_S1x16 := by
  back3
  rw [W2_arg6]
  rfl
/-- The neighbourhood sums of the first layer's features. -/
theorem W3_v25 (c : Dev nD) : W3 m ρ c (Proc.devRef .tc main_v25)
    = aggregate16 (srcWords (m ((c : Thread nD τ).loc main_arg1))) (dstWords (m ((c : Thread nD τ).loc main_arg1))) (feat1 m c) := by
  back3
  rw [W2_v1, W2_v3, W2_v15]
  rfl

/-- The node features after the second layer. -/
def feat2 (c : Dev nD) : FVec Ideal S100000x16 .f32 :=
  convRow (M := 100000) (K := 16) (N := 16)
    (aggregate16 (srcWords (m ((c : Thread nD τ).loc main_arg1))) (dstWords (m ((c : Thread nD τ).loc main_arg1))) (feat1 m c))
    (feat1 m c) (m ((c : Thread nD τ).loc main_arg5)) (m ((c : Thread nD τ).loc main_arg7)) (shapeCast S1x16 (m ((c : Thread nD τ).loc main_arg6)) shapeCasts_S16_S1x16)

theorem W4_v27 (c : Dev nD) : W4 m ρ c (Proc.devRef .tc main_v27) = feat2 m c := by
  refine (W4_arr m ρ c 5).trans ((Layer1.final (V3 m ρ) c).trans ?_)
  show convRow (M := 100000) (K := 16) (N := 16) (W3 m ρ c (Proc.devRef .tc main_v25)) (W3 m ρ c (Proc.devRef .tc main_v15))
    (W3 m ρ c (Proc.devRef .tc main_arg5)) (W3 m ρ c (Proc.devRef .tc main_arg7)) (W3 m ρ c (Proc.devRef .tc main_v26)) = _
  rw [W3_v25, W3_v15, W3_arg5, W3_arg7, W3_v26]
  rfl

theorem W4_v1 (c : Dev nD) : W4 m ρ c (Proc.devRef .tc main_v1) = srcWords (m ((c : Thread nD τ).loc main_arg1)) :=
  (W4_of_ne m ρ c main_v1 (by decide)).trans (W3_v1 m ρ c)
theorem W4_v3 (c : Dev nD) : W4 m ρ c (Proc.devRef .tc main_v3) = dstWords (m ((c : Thread nD τ).loc main_arg1)) :=
  (W4_of_ne m ρ c main_v3 (by decide)).trans (W3_v3 m ρ c)
theorem W4_arg8 (c : Dev nD) : W4 m ρ c (Proc.devRef .tc main_arg8) = m ((c : Thread nD τ).loc main_arg8) := (W4_of_ne m ρ c main_arg8 (by decide)).trans (W3_arg8 m ρ c)
theorem W4_arg9 (c : Dev nD) : W4 m ρ c (Proc.devRef .tc main_arg9) = m ((c : Thread nD τ).loc main_arg9) := (W4_of_ne m ρ c main_arg9 (by decide)).trans (W3_arg9 m ρ c)
theorem W4_arg10 (c : Dev nD) : W4 m ρ c (Proc.devRef .tc main_arg10) = m ((c : Thread nD τ).loc main_arg10) := (W4_of_ne m ρ c main_arg10 (by decide)).trans (W3_arg10 m ρ c)
theorem W4_arg11 (c : Dev nD) : W4 m ρ c (Proc.devRef .tc main_arg11) = m ((c : Thread nD τ).loc main_arg11) := (W4_of_ne m ρ c main_arg11 (by decide)).trans (W3_arg11 m ρ c)
theorem W4_arg12 (c : Dev nD) : W4 m ρ c (Proc.devRef .tc main_arg12) = m ((c : Thread nD τ).loc main_arg12) := (W4_of_ne m ρ c main_arg12 (by decide)).trans (W3_arg12 m ρ c)
theorem W4_arg13 (c : Dev nD) : W4 m ρ c (Proc.devRef .tc main_arg13) = m ((c : Thread nD τ).loc main_arg13) := (W4_of_ne m ρ c main_arg13 (by decide)).trans (W3_arg13 m ρ c)
theorem W4_arg14 (c : Dev nD) : W4 m ρ c (Proc.devRef .tc main_arg14) = m ((c : Thread nD τ).loc main_arg14) := (W4_of_ne m ρ c main_arg14 (by decide)).trans (W3_arg14 m ρ c)

/-! ## The third host stretch and the third call -/

theorem W5_v27 (c : Dev nD) : W5 m ρ c (Proc.devRef .tc main_v27) = feat2 m c := by back5; exact W4_v27 m ρ c
theorem W5_arg8 (c : Dev nD) : W5 m ρ c (Proc.devRef .tc main_arg8) = m ((c : Thread nD τ).loc main_arg8) := by back5; exact W4_arg8 m ρ c
theorem W5_arg10 (c : Dev nD) : W5 m ρ c (Proc.devRef .tc main_arg10) = m ((c : Thread nD τ).loc main_arg10) := by back5; exact W4_arg10 m ρ c
theorem W5_arg11 (c : Dev nD) : W5 m ρ c (Proc.devRef .tc main_arg11) = m ((c : Thread nD τ).loc main_arg11) := by back5; exact W4_arg11 m ρ c
theorem W5_arg12 (c : Dev nD) : W5 m ρ c (Proc.devRef .tc main_arg12) = m ((c : Thread nD τ).loc main_arg12) := by back5; exact W4_arg12 m ρ c
theorem W5_arg13 (c : Dev nD) : W5 m ρ c (Proc.devRef .tc main_arg13) = m ((c : Thread nD τ).loc main_arg13) := by back5; exact W4_arg13 m ρ c
theorem W5_arg14 (c : Dev nD) : W5 m ρ c (Proc.devRef .tc main_arg14) = m ((c : Thread nD τ).loc main_arg14) := by back5; exact W4_arg14 m ρ c
theorem W5_v38 (c : Dev nD) : W5 m ρ c (Proc.devRef .tc main_v38) = shapeCast S1x16 (m ((c : Thread nD τ).loc main_arg9)) shapeCasts_S16_S1x16 := by
  back5
  rw [W4_arg9]
  rfl
/-- The neighbourhood sums of the second layer's features. -/
theorem W5_v37 (c : Dev nD) : W5 m ρ c (Proc.devRef .tc main_v37)
    = aggregate16 (srcWords (m ((c : Thread nD τ).loc main_arg1))) (dstWords (m ((c : Thread nD τ).loc main_arg1))) (feat2 m c) := by
  back5
  rw [W4_v1, W4_v3, W4_v27]
  rfl

/-- The node features after the third layer: the first result. -/
def feat3 (c : Dev nD) : FVec Ideal S100000x16 .f32 :=
  convRow (M := 100000) (K := 16) (N := 16)
    (aggregate16 (srcWords (m ((c : Thread nD τ).loc main_arg1))) (dstWords (m ((c : Thread nD τ).loc main_arg1))) (feat2 m c))
    (feat2 m c) (m ((c : Thread nD τ).loc main_arg8)) (m ((c : Thread nD τ).loc main_arg10)) (shapeCast S1x16 (m ((c : Thread nD τ).loc main_arg9)) shapeCasts_S16_S1x16)

theorem W6_v39 (c : Dev nD) : W6 m ρ c (Proc.devRef .tc main_v39) = feat3 m c := by
  refine (W6_arr m ρ c 5).trans ((Layer2.final (V5 m ρ) c).trans ?_)
  show convRow (M := 100000) (K := 16) (N := 16) (W5 m ρ c (Proc.devRef .tc main_v37)) (W5 m ρ c (Proc.devRef .tc main_v27))
    (W5 m ρ c (Proc.devRef .tc main_arg8)) (W5 m ρ c (Proc.devRef .tc main_arg10)) (W5 m ρ c (Proc.devRef .tc main_v38)) = _
  rw [W5_v37, W5_v27, W5_arg8, W5_arg10, W5_v38]
  rfl

theorem W6_arg11 (c : Dev nD) : W6 m ρ c (Proc.devRef .tc main_arg11) = m ((c : Thread nD τ).loc main_arg11) := (W6_of_ne m ρ c main_arg11 (by decide)).trans (W5_arg11 m ρ c)
theorem W6_arg12 (c : Dev nD) : W6 m ρ c (Proc.devRef .tc main_arg12) = m ((c : Thread nD τ).loc main_arg12) := (W6_of_ne m ρ c main_arg12 (by decide)).trans (W5_arg12 m ρ c)
theorem W6_arg13 (c : Dev nD) : W6 m ρ c (Proc.devRef .tc main_arg13) = m ((c : Thread nD τ).loc main_arg13) := (W6_of_ne m ρ c main_arg13 (by decide)).trans (W5_arg13 m ρ c)
theorem W6_arg14 (c : Dev nD) : W6 m ρ c (Proc.devRef .tc main_arg14) = m ((c : Thread nD τ).loc main_arg14) := (W6_of_ne m ρ c main_arg14 (by decide)).trans (W5_arg14 m ρ c)

/-! ## The last host stretch and the head's call -/

theorem W7_v39 (c : Dev nD) : W7 m ρ c (Proc.devRef .tc main_v39) = feat3 m c := by back7; exact W6_v39 m ρ c
theorem W7_arg11 (c : Dev nD) : W7 m ρ c (Proc.devRef .tc main_arg11) = m ((c : Thread nD τ).loc main_arg11) := by back7; exact W6_arg11 m ρ c
theorem W7_arg13 (c : Dev nD) : W7 m ρ c (Proc.devRef .tc main_arg13) = m ((c : Thread nD τ).loc main_arg13) := by back7; exact W6_arg13 m ρ c
theorem W7_v40 (c : Dev nD) : W7 m ρ c (Proc.devRef .tc main_v40) = shapeCast S1x16 (m ((c : Thread nD τ).loc main_arg12)) shapeCasts_S16_S1x16 := by
  back7
  rw [W6_arg12]
  rfl
theorem W7_v41 (c : Dev nD) : W7 m ρ c (Proc.devRef .tc main_v41) = shapeCast S1x1 (m ((c : Thread nD τ).loc main_arg14)) shapeCasts_S1_S1x1 := by
  back7
  rw [W6_arg14]
  rfl

/-- The head's output: the second result. -/
def score (c : Dev nD) : FVec Ideal S100000x1 .f32 :=
  headRow (M := 100000) (K := 16) (N := 16) (P := 1) (feat3 m c) (m ((c : Thread nD τ).loc main_arg11))
    (shapeCast S1x16 (m ((c : Thread nD τ).loc main_arg12)) shapeCasts_S16_S1x16) (m ((c : Thread nD τ).loc main_arg13)) (shapeCast S1x1 (m ((c : Thread nD τ).loc main_arg14)) shapeCasts_S1_S1x1)

/-- The second result array after the run. -/
theorem W8_v42 (c : Dev nD) : W8 m ρ c (Proc.devRef .tc main_v42) = score m c := by
  refine (W8_arr m ρ c 5).trans ((Layer3.final (V7 m ρ) c).trans ?_)
  show headRow (M := 100000) (K := 16) (N := 16) (P := 1) (W7 m ρ c (Proc.devRef .tc main_v39)) (W7 m ρ c (Proc.devRef .tc main_arg11))
    (W7 m ρ c (Proc.devRef .tc main_v40)) (W7 m ρ c (Proc.devRef .tc main_arg13)) (W7 m ρ c (Proc.devRef .tc main_v41)) = _
  rw [W7_v39, W7_arg11, W7_v40, W7_arg13, W7_v41]
  rfl

/-- The first result array after the run: the head's call stages it as an input and leaves it as it was. -/
theorem W8_v39 (c : Dev nD) : W8 m ρ c (Proc.devRef .tc main_v39) = feat3 m c :=
  (W8_arr m ρ c 0).trans (((dat3 (V7 m ρ) c).arrAt_in 0 rfl _).trans ((A_eq3 (V7 m ρ) c 0).trans (W7_v39 m ρ c)))

end Cert.KernelIdeal.Chain

end
-- ==== Proof.RefValue.lean ====
import proofs.«155998_j81990925680800_1_alg».proof.Proof.Gen.ReferenceIdeal.Run
import proofs.«155998_j81990925680800_1_alg».proof.Proof.LayerMath

set_option maxRecDepth 16384

noncomputable section

/-! # The reference's two results as functions of its arguments

The reference applies the same neighbourhood sums and, per layer, the whole-array form of the layer: a host product
with the relation weights, the bias vector broadcast in two steps, a host product with the root weights, the maximum
with a zero array. Each such stretch of its composed term is the entry-by-entry layer of `GraphLayers` (the bias
vector cast to a row), so its first result is three nested layers and its second the head of that. -/

namespace Cert.ReferenceIdeal.RefValue

open Cert.ReferenceIdeal Cert.ReferenceIdeal.Gen Cert.ReferenceIdeal.Value Cert.GraphLayers
open Idealize.ShloMosaic Idealize.ShloMosaic.TcCoe Idealize.SL.Sem

/-- The edges' source endpoints: row 0 of the edge array. -/
def srcWords (e : IVec S2x3200000 32) : IVec S3200000 32 :=
  shapeCast S3200000 (extractStridedSlice S1x3200000 ![0, 0] e slices_S2x3200000_S1x3200000_0_0) shapeCasts_S1x3200000_S3200000

/-- The edges' target endpoints: row 1 of the edge array. -/
def dstWords (e : IVec S2x3200000 32) : IVec S3200000 32 :=
  shapeCast S3200000 (extractStridedSlice S1x3200000 ![1, 0] e slices_S2x3200000_S1x3200000_1_0) shapeCasts_S1x3200000_S3200000

/-- Neighbourhood sums of two-column features: gather the rows at the sources (a negative word wrapped once),
    add them into the rows at the targets of a zero array. -/
def aggregate2 (s d : IVec S3200000 32) (x : FVec Ideal S100000x2 .f32) : FVec Ideal S100000x2 .f32 :=
  Host.scatterAdd scatter_S100000x2_S3200000x1_S3200000x2_1_0_0_1
    (broadcastInDim S100000x2 ![] bcast_S_S100000x2 (constant S_ .f32 0x00000000#32))
    (broadcastInDim S3200000x1 ![0] bcast_S3200000_S3200000x1_0 d)
    (Host.gather gather_S100000x2_S3200000x1_S3200000x2_1_0_n_n_0_1_12 x
      (broadcastInDim S3200000x1 ![0] bcast_S3200000_S3200000x1_0
        (select (cmpi .slt s (broadcastInDim S3200000 ![] bcast_S_S3200000 (constantI S_ 32 0#32)))
          (addi s (broadcastInDim S3200000 ![] bcast_S_S3200000 (constantI S_ 32 100000#32))) s)))

/-- The same for sixteen-column features. -/
def aggregate16 (s d : IVec S3200000 32) (x : FVec Ideal S100000x16 .f32) : FVec Ideal S100000x16 .f32 :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 d)
    (Host.gather gather_S100000x16_S3200000x1_S3200000x16_1_0_n_n_0_1_116 x
      (broadcastInDim S3200000x1 ![0] bcast_S3200000_S3200000x1_0
        (select (cmpi .slt s (broadcastInDim S3200000 ![] bcast_S_S3200000 (constantI S_ 32 0#32)))
          (addi s (broadcastInDim S3200000 ![] bcast_S_S3200000 (constantI S_ 32 100000#32))) s)))

/-- A sixteen-entry vector has as many entries as a one-by-sixteen row. -/
theorem casts16 : S16.ShapeCasts S1x16 := by decide
/-- A one-entry vector has as many entries as a one-by-one row. -/
theorem casts1 : S1.ShapeCasts S1x1 := by decide

/-- The reference's first layer (two input columns) is the entry-by-entry layer. -/
theorem layer2_eq (A H : FVec Ideal S100000x2 .f32) (W W' : FVec Ideal S2x16 .f32) (b : FVec Ideal S16 .f32) :
    maximumf
        (addf
          (addf (Host.dotGeneral dot_S100000x2_S2x16_S100000x16_1_0_0_1_n_n none A W)
            (broadcastInDim S100000x16 ![0, 1] bcast_S1x16_S100000x16_0_1 (broadcastInDim S1x16 ![1] bcast_S16_S1x16_1 b)))
          (Host.dotGeneral dot_S100000x2_S2x16_S100000x16_1_0_0_1_n_n none H W'))
        (broadcastInDim S100000x16 ![] bcast_S_S100000x16 (constant S_ .f32 0x00000000#32))
      = convRow (M := 100000) (K := 2) (N := 16) A H W W' (shapeCast S1x16 b casts16) :=
  conv_whole dot_S100000x2_S2x16_S100000x16_1_0_0_1_n_n rfl bcast_S16_S1x16_1 bcast_S1x16_S100000x16_0_1 bcast_S_S100000x16 casts16 A H W W' b

/-- The reference's later layers (sixteen input columns) are the entry-by-entry layer. -/
theorem layer16_eq (A H : FVec Ideal S100000x16 .f32) (W W' : FVec Ideal S16x16 .f32) (b : FVec Ideal S16 .f32) :
    maximumf
        (addf
          (addf (Host.dotGeneral dot_S100000x16_S16x16_S100000x16_1_0_0_1_n_n none A W)
            (broadcastInDim S100000x16 ![0, 1] bcast_S1x16_S100000x16_0_1 (broadcastInDim S1x16 ![1] bcast_S16_S1x16_1 b)))
          (Host.dotGeneral dot_S100000x16_S16x16_S100000x16_1_0_0_1_n_n none H W'))
        (broadcastInDim S100000x16 ![] bcast_S_S100000x16 (constant S_ .f32 0x00000000#32))
      = convRow (M := 100000) (K := 16) (N := 16) A H W W' (shapeCast S1x16 b casts16) :=
  conv_whole dot_S100000x16_S16x16_S100000x16_1_0_0_1_n_n rfl bcast_S16_S1x16_1 bcast_S1x16_S100000x16_0_1 bcast_S_S100000x16 casts16 A H W W' b

/-- The reference's head is the entry-by-entry head. -/
theorem head_eq (H : FVec Ideal S100000x16 .f32) (W₁ : FVec Ideal S16x16 .f32) (b₁ : FVec Ideal S16 .f32)
    (W₂ : FVec Ideal S16x1 .f32) (b₂ : FVec Ideal S1 .f32) :
    addf
        (Host.dotGeneral dot_S100000x16_S16x1_S100000x1_1_0_0_1_n_n none
          (maximumf
            (addf (Host.dotGeneral dot_S100000x16_S16x16_S100000x16_1_0_0_1_n_n none H W₁)
              (broadcastInDim S100000x16 ![0, 1] bcast_S1x16_S100000x16_0_1 (broadcastInDim S1x16 ![1] bcast_S16_S1x16_1 b₁)))
            (broadcastInDim S100000x16 ![] bcast_S_S100000x16 (constant S_ .f32 0x00000000#32)))
          W₂)
        (broadcastInDim S100000x1 ![0, 1] bcast_S1x1_S100000x1_0_1 (broadcastInDim S1x1 ![1] bcast_S1_S1x1_1 b₂))
      = headRow (M := 100000) (K := 16) (N := 16) (P := 1) H W₁ (shapeCast S1x16 b₁ casts16) W₂ (shapeCast S1x1 b₂ casts1) :=
  head_whole dot_S100000x16_S16x16_S100000x16_1_0_0_1_n_n rfl dot_S100000x16_S16x1_S100000x1_1_0_0_1_n_n rfl
    bcast_S16_S1x16_1 bcast_S1x16_S100000x16_0_1 bcast_S_S100000x16 casts16 bcast_S1_S1x1_1 bcast_S1x1_S100000x1_0_1 casts1 H W₁ b₁ W₂ b₂

variable (m : (ℓ : Loc nD τ sig) → Buf (Elt Ideal) ℓ)

/-- The node features after the first layer. -/
def feat1 (c : Dev nD) : FVec Ideal S100000x16 .f32 :=
  convRow (M := 100000) (K := 2) (N := 16)
    (aggregate2 (srcWords (m ((c.tc : Thread nD τ).loc main_arg1))) (dstWords (m ((c.tc : Thread nD τ).loc main_arg1)))
      (m ((c.tc : Thread nD τ).loc main_arg0)))
    (m ((c.tc : Thread nD τ).loc main_arg0)) (m ((c.tc : Thread nD τ).loc main_arg2)) (m ((c.tc : Thread nD τ).loc main_arg4))
    (shapeCast S1x16 (m ((c.tc : Thread nD τ).loc main_arg3)) casts16)

/-- The node features after the second layer. -/
def feat2 (c : Dev nD) : FVec Ideal S100000x16 .f32 :=
  convRow (M := 100000) (K := 16) (N := 16)
    (aggregate16 (srcWords (m ((c.tc : Thread nD τ).loc main_arg1))) (dstWords (m ((c.tc : Thread nD τ).loc main_arg1))) (feat1 m c))
    (feat1 m c) (m ((c.tc : Thread nD τ).loc main_arg5)) (m ((c.tc : Thread nD τ).loc main_arg7))
    (shapeCast S1x16 (m ((c.tc : Thread nD τ).loc main_arg6)) casts16)

/-- The node features after the third layer: the first result. -/
def feat3 (c : Dev nD) : FVec Ideal S100000x16 .f32 :=
  convRow (M := 100000) (K := 16) (N := 16)
    (aggregate16 (srcWords (m ((c.tc : Thread nD τ).loc main_arg1))) (dstWords (m ((c.tc : Thread nD τ).loc main_arg1))) (feat2 m c))
    (feat2 m c) (m ((c.tc : Thread nD τ).loc main_arg8)) (m ((c.tc : Thread nD τ).loc main_arg10))
    (shapeCast S1x16 (m ((c.tc : Thread nD τ).loc main_arg9)) casts16)

/-- The head's output: the second result. -/
def score (c : Dev nD) : FVec Ideal S100000x1 .f32 :=
  headRow (M := 100000) (K := 16) (N := 16) (P := 1) (feat3 m c) (m ((c.tc : Thread nD τ).loc main_arg11))
    (shapeCast S1x16 (m ((c.tc : Thread nD τ).loc main_arg12)) casts16) (m ((c.tc : Thread nD τ).loc main_arg13))
    (shapeCast S1x1 (m ((c.tc : Thread nD τ).loc main_arg14)) casts1)

theorem out0_eq (c : Dev nD) : res_main_v54 m c = feat3 m c := by
  unfold res_main_v54
  rw [layer16_eq, layer16_eq, layer2_eq]
  rfl

theorem out1_eq (c : Dev nD) : res_main_v63 m c = score m c := by
  unfold res_main_v63
  rw [head_eq, layer16_eq, layer16_eq, layer2_eq]
  rfl

end Cert.ReferenceIdeal.RefValue

end
-- ==== Proof.Bridge.lean ====
import proofs.«155998_j81990925680800_1_alg».proof.Proof.KernelValue
import proofs.«155998_j81990925680800_1_alg».proof.Proof.RefValue

set_option maxRecDepth 16384

noncomputable section

/-! # The two programs' results are one function of the arguments

Both programs cut the same endpoint rows out of the edge array and take the same neighbourhood sums (the same
gather and the same scatter-add, each program naming their dimension records in its own namespace), and both
results are the same nesting of the entry-by-entry layers over them. So from memories that agree on the fifteen
arguments the two first results are equal and the two second results are equal. -/

namespace Cert.Bridge

open Idealize.ShloMosaic Idealize.ShloMosaic.TcCoe Idealize.SL.Sem

theorem srcWords_eq : Cert.ReferenceIdeal.RefValue.srcWords = Cert.KernelIdeal.Chain.srcWords := rfl
theorem dstWords_eq : Cert.ReferenceIdeal.RefValue.dstWords = Cert.KernelIdeal.Chain.dstWords := rfl
theorem aggregate2_eq : Cert.ReferenceIdeal.RefValue.aggregate2 = Cert.KernelIdeal.Chain.aggregate2 := rfl
theorem aggregate16_eq : Cert.ReferenceIdeal.RefValue.aggregate16 = Cert.KernelIdeal.Chain.aggregate16 := rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The memories agree on argument `k` of core `c`, for the arguments the first layer reads. -/
theorem feat1_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.RefValue.feat1 m' c = Cert.KernelIdeal.Chain.feat1 m c := by
  unfold Cert.ReferenceIdeal.RefValue.feat1 Cert.KernelIdeal.Chain.feat1
  rw [h0, h1, h2, h3, h4, srcWords_eq, dstWords_eq, aggregate2_eq]

theorem feat2_eq
    (hf : Cert.ReferenceIdeal.RefValue.feat1 m' c = Cert.KernelIdeal.Chain.feat1 m c)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.RefValue.feat2 m' c = Cert.KernelIdeal.Chain.feat2 m c := by
  unfold Cert.ReferenceIdeal.RefValue.feat2 Cert.KernelIdeal.Chain.feat2
  rw [hf, h1, h5, h6, h7, srcWords_eq, dstWords_eq, aggregate16_eq]

theorem feat3_eq
    (hf : Cert.ReferenceIdeal.RefValue.feat2 m' c = Cert.KernelIdeal.Chain.feat2 m c)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.RefValue.feat3 m' c = Cert.KernelIdeal.Chain.feat3 m c := by
  unfold Cert.ReferenceIdeal.RefValue.feat3 Cert.KernelIdeal.Chain.feat3
  rw [hf, h1, h8, h9, h10, srcWords_eq, dstWords_eq, aggregate16_eq]

theorem score_eq
    (hf : Cert.ReferenceIdeal.RefValue.feat3 m' c = Cert.KernelIdeal.Chain.feat3 m c)
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.RefValue.score m' c = Cert.KernelIdeal.Chain.score m c := by
  unfold Cert.ReferenceIdeal.RefValue.score Cert.KernelIdeal.Chain.score
  rw [hf, h11, h12, h13, h14]

end Cert.Bridge

end
-- ==== Proof.lean ====
/- The proof of `Cert.Claim`: a three-layer graph convolution with a two-layer head, as four Pallas calls among host
   stretches, against its jnp reference, over the extended reals.

   Each layer is `max (A·W + H·W' + b) 0` of the node features `H` and their neighbourhood sums `A` (gather the
   rows at the edges' sources, add them into the rows at the targets). The kernel program takes the sums on the host
   and applies the layer in a call, on five blocks of 20000 rows, with matrix-unit products into zero accumulators and
   the bias row added last; the reference takes the same sums and applies the layer on the whole array with host
   products, the bias added to the first product. Entry by entry the two agree (addition of extended reals is
   commutative and associative, also at the infinities), the blocks tile the arrays, and the sums are literally the
   same host operations, so layer by layer the two programs hold equal node features; the head is two such dense steps.

   The frames of the two kernel programs are the generated ones; the kernel program's run with its two results named
   is the generated launch called again; the reference's frame and run are its generated run; the ideal pass rewrote
   nothing, so `preserves` is trivial. -/
import proofs.«155998_j81990925680800_1_alg».proof.Defs
import proofs.«155998_j81990925680800_1_alg».proof.Proof.Gen.Kernel
import proofs.«155998_j81990925680800_1_alg».proof.Proof.Gen.Kernel.Skeleton
import proofs.«155998_j81990925680800_1_alg».proof.Proof.Gen.Kernel.Launch
import proofs.«155998_j81990925680800_1_alg».proof.Proof.Gen.Kernel.Points
import proofs.«155998_j81990925680800_1_alg».proof.Proof.Gen.Kernel.Frame
import proofs.«155998_j81990925680800_1_alg».proof.Proof.Gen.KernelIdeal
import proofs.«155998_j81990925680800_1_alg».proof.Proof.Gen.KernelIdeal.Skeleton
import proofs.«155998_j81990925680800_1_alg».proof.Proof.Gen.KernelIdeal.Launch
import proofs.«155998_j81990925680800_1_alg».proof.Proof.Gen.KernelIdeal.Points
import proofs.«155998_j81990925680800_1_alg».proof.Proof.Gen.KernelIdeal.Frame
import proofs.«155998_j81990925680800_1_alg».proof.Proof.Gen.ReferenceIdeal
import proofs.«155998_j81990925680800_1_alg».proof.Proof.Gen.Pre_finite_inputs
import proofs.«155998_j81990925680800_1_alg».proof.Proof.Gen.ReferenceIdeal.Run
import proofs.«155998_j81990925680800_1_alg».proof.Proof.KernelRun
import proofs.«155998_j81990925680800_1_alg».proof.Proof.KernelValue
import proofs.«155998_j81990925680800_1_alg».proof.Proof.RefValue
import proofs.«155998_j81990925680800_1_alg».proof.Proof.Bridge
import Idealize.ShloMosaic.Adequacy
import Idealize.ShloMosaic.Init

noncomputable section

namespace Cert.Proof

open Idealize.ShloMosaic Idealize.SL.Sem

/-- The word-level kernel program runs and leaves its arguments unchanged: the generated frame. -/
theorem frame_kernel : Cert.frame_Kernel := fun m ρ _ => Cert.Kernel.Gen.frame m ρ

/-- The idealized kernel program runs and leaves its arguments unchanged: the generated frame. -/
theorem frame_ideal : Cert.frame_KernelIdeal := fun m ρ _ => Cert.KernelIdeal.Gen.frame m ρ

/-- The reference runs and leaves its arguments unchanged: its generated run, the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories that agree on the arguments both programs end with the node features after the third layer and the
    head's output of them: the kernel program's result arrays read back through its boundaries, the reference's
    composed terms read as nested layers, and the two nestings equal once the arguments are. -/
theorem algebraic : Cert.algebraic_KernelIdeal_ReferenceIdeal := by
  intro m ρ m' ρ' _ hagree
  refine ⟨fun c => Cert.KernelIdeal.Chain.feat3 m c, fun c => Cert.KernelIdeal.Chain.score m c, ?_, ?_⟩
  · exact (θ_run Cert.KernelIdeal.defs _ _).mono
      (fun r h c => ⟨(h c).1.trans (Cert.KernelIdeal.Chain.W8_v39 m ρ c),
        (h c).2.1.trans (Cert.KernelIdeal.Chain.W8_v42 m ρ c), (h c).2.2⟩)
      (Cert.KernelIdeal.GenRun.run (F := Ideal) m ρ)
  · refine (θ_run Cert.ReferenceIdeal.defs _ _).mono (fun r h c => ?_)
      (Cert.ReferenceIdeal.Value.run (F := Ideal) m' ρ')
    obtain ⟨h0, h1, h2, h3, h4, h5, h6, h7, h8, h9, h10, h11, h12, h13, h14⟩ := hagree c
    have e1 := Cert.Bridge.feat1_eq m m' c h0 h1 h2 h3 h4
    have e2 := Cert.Bridge.feat2_eq m m' c e1 h1 h5 h6 h7
    have e3 := Cert.Bridge.feat3_eq m m' c e2 h1 h8 h9 h10
    have e4 := Cert.Bridge.score_eq m m' c e3 h11 h12 h13 h14
    exact ⟨(h c).1.trans ((Cert.ReferenceIdeal.RefValue.out0_eq m' c).trans e3),
      (h c).2.1.trans ((Cert.ReferenceIdeal.RefValue.out1_eq m' c).trans e4), (h c).2.2⟩

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
